-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4x128x128 : Shape := ⟨5, ![8, 128, 4, 128, 128]⟩
abbrev S128x128 : Shape := ⟨2, ![128, 128]⟩
abbrev S128 : Shape := ⟨1, ![128]⟩
abbrev S_ : Shape := ⟨0, ![]⟩

class Facts : Prop where
  bcast_S_S8x128x4x128x128 : S_.BroadcastsInDim S8x128x4x128x128 (![] : Fin 0 → Fin S8x128x4x128x128.rank)
  reducesTo_S8x128x4x128x128_S_d0_1_2_3_4 : S8x128x4x128x128.ReducesTo [0, 1, 2, 3, 4] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8x128x4x128x128 .f32) (main_arg1 : FVec F S128x128 .f32) (main_arg2 : FVec F S128 .f32) (main_arg3 : FVec F S128x128 .f32) (main_arg4 : FVec F S128 .f32) : IVec S_ 1 :=
  let main_v0 : FVec F S8x128x4x128x128 .f32 := Host.absf main_arg0
  let main_cst : FVec F S_ .f32 := constant S_ .f32 0x7F800000#32
  let main_v1 : FVec F S8x128x4x128x128 .f32 := broadcastInDim S8x128x4x128x128 ![] bcast_S_S8x128x4x128x128 main_cst
  let main_v2 : IVec S8x128x4x128x128 1 := cmpf .olt main_v0 main_v1
  let main_c : IVec S_ 1 := constantI S_ 1 1#1
  let main_v3 : IVec S_ 1 := (fun x v => Host.reduce IntOp.andi x v reducesTo_S8x128x4x128x128_S_d0_1_2_3_4 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8x128x4x128x128 : Shape := ⟨5, ![8, 128, 4, 128, 128]⟩
abbrev S128x128 : Shape := ⟨2, ![128, 128]⟩
abbrev S128 : Shape := ⟨1, ![128]⟩
abbrev S8x128x1x1 : Shape := ⟨4, ![8, 128, 1, 1]⟩
abbrev S1x128x1x128x128 : Shape := ⟨5, ![1, 128, 1, 128, 128]⟩
abbrev S1x128x1x1 : Shape := ⟨4, ![1, 128, 1, 1]⟩
abbrev S1x128x1x128 : Shape := ⟨4, ![1, 128, 1, 128]⟩
abbrev S1x128x1 : Shape := ⟨3, ![1, 128, 1]⟩
abbrev S8x128 : Shape := ⟨2, ![8, 128]⟩
abbrev S1x128 : Shape := ⟨2, ![1, 128]⟩
abbrev S8x128x1x1x1 : Shape := ⟨5, ![8, 128, 1, 1, 1]⟩
abbrev S1x128x1x64x128 : Shape := ⟨5, ![1, 128, 1, 64, 128]⟩
abbrev S1x128x1x1x1 : Shape := ⟨5, ![1, 128, 1, 1, 1]⟩

abbrev nBuf : Space → Nat
  | .hbm => 12
  | .vmem => 16
  | .smem => 0
  | _ => 0

abbrev bufTy : (tb : Table) → Fin (tcTables nBuf tb) → BufTy
  | .hbm, ⟨0, _⟩ => ⟨S8x128x4x128x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S8x128x1x1, .f32⟩
  | .hbm, ⟨6, _⟩ => ⟨S8x128, .f32⟩
  | .hbm, ⟨7, _⟩ => ⟨S1x128, .f32⟩
  | .hbm, ⟨8, _⟩ => ⟨S1x128, .f32⟩
  | .hbm, ⟨9, _⟩ => ⟨S8x128, .f32⟩
  | .hbm, ⟨10, _⟩ => ⟨S8x128x1x1x1, .f32⟩
  | .hbm, ⟨11, _⟩ => ⟨S8x128x4x128x128, .f32⟩
  | .local _ .vmem, ⟨0, _⟩ => ⟨S1x128x1x128x128, .f32⟩
  | .local _ .vmem, ⟨1, _⟩ => ⟨S1x128x1x128x128, .f32⟩
  | .local _ .vmem, ⟨2, _⟩ => ⟨S1x128x1x1, .f32⟩
  | .local _ .vmem, ⟨3, _⟩ => ⟨S1x128x1x1, .f32⟩
  | .local _ .vmem, ⟨4, _⟩ => ⟨S8x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S8x128, .f32⟩
  | .local _ .vmem, ⟨10, _⟩ => ⟨S1x128x1x64x128, .f32⟩
  | .local _ .vmem, ⟨11, _⟩ => ⟨S1x128x1x64x128, .f32⟩
  | .local _ .vmem, ⟨12, _⟩ => ⟨S1x128x1x1x1, .f32⟩
  | .local _ .vmem, ⟨13, _⟩ => ⟨S1x128x1x1x1, .f32⟩
  | .local _ .vmem, ⟨14, _⟩ => ⟨S1x128x1x64x128, .f32⟩
  | .local _ .vmem, ⟨15, _⟩ => ⟨S1x128x1x64x128, .f32⟩
  | _, _ => ⟨S8x128x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg1 : BitVec 32 := BitVec.ofNat 32 (i 1).val
  let c0_i32_6 : BitVec 32 := 0#32
  let v7 : BitVec 1 := Scalar.cmpi .ne arg1 c0_i32_6
  let v8 : BitVec 32 := Scalar.extui v7
  let c0_i32_7 : BitVec 32 := 0#32
  let v9 : BitVec 1 := Scalar.cmpi .ne v8 c0_i32_7
  v9

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨3, ![8, 4, 2], ![false, false, false]⟩

def cc2_transform_0 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc2_transform_1 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_2 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

abbrev stage2_0 : Fin 2 → Memref sig .tc .vmem S1x128x1x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x128x1x1x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1x128x1x64x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

class Facts₀ : Prop where
  inb_S1x128x1x128x128_S1x128x1x128x128_0_0_0_0_0 : ∀ a, (![0, 0, 0, 0, 0] : Fin 5 → Nat) a + S1x128x1x128x128.size a ≤ S1x128x1x128x128.size a
  h_S1x128x1x128x128 : 0 < S1x128x1x128x128.numel
  reduces_S1x128x1x128x128_S1x128x1x128 : S1x128x1x128x128.Reduces [4] S1x128x1x128
  reduces_S1x128x1x128_S1x128x1 : S1x128x1x128.Reduces [3] S1x128x1
  shapeCasts_S1x128x1_S1x128x1x1 : S1x128x1.ShapeCasts S1x128x1x1
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  shapeCasts_S8x128x1x1_S8x128 : S8x128x1x1.ShapeCasts S8x128
  shapeCasts_S128_S1x128 : S128.ShapeCasts S1x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  shapeCasts_S8x128_S8x128x1x1x1 : S8x128.ShapeCasts S8x128x1x1x1
  inb_S1x128x1x64x128_S1x128x1x64x128_0_0_0_0_0 : ∀ a, (![0, 0, 0, 0, 0] : Fin 5 → Nat) a + S1x128x1x64x128.size a ≤ S1x128x1x64x128.size a
  h_S1x128x1x64x128 : 0 < S1x128x1x64x128.numel
  inb_S1x128x1x1x1_S1x128x1x1x1_0_0_0_0_0 : ∀ a, (![0, 0, 0, 0, 0] : Fin 5 → Nat) a + S1x128x1x1x1.size a ≤ S1x128x1x1x1.size a
  h_S1x128x1x1x1 : 0 < S1x128x1x1x1.numel
  shapeCasts_S1x128x1x1x1_S1x128x1x1x1 : S1x128x1x1x1.ShapeCasts S1x128x1x1x1
  broadcasts_S1x128x1x1x1_S1x128x1x64x128 : S1x128x1x1x1.Broadcasts S1x128x1x64x128
  dot_S8x128_S128x128_S8x128_1_1_0_0_n_n_wf : DotDims.WF S8x128 S128x128 S8x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1x128x128.size a ≤ S8x128x4x128x128.size a
  hwx0_0 : ∀ i : grid0.Coords, EltTy.bits .f32 = 32 ∨ (Rect.block (s := S8x128x4x128x128) S1x128x1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1x1.size a ≤ S8x128x1x1.size a
  hwx0_1 : ∀ i : grid0.Coords, EltTy.bits .f32 = 32 ∨ (Rect.block (s := S8x128x1x1) S1x128x1x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x128.size a ≤ S8x128.size a
  hwx1_0 : ∀ i : grid1.Coords, EltTy.bits .f32 = 32 ∨ (Rect.block (s := S8x128) S8x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x1x64x128.size a ≤ S8x128x4x128x128.size a
  hwx2_0 : ∀ i : grid2.Coords, EltTy.bits .f32 = 32 ∨ (Rect.block (s := S8x128x4x128x128) S1x128x1x64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x1x1x1.size a ≤ S8x128x1x1x1.size a
  hwx2_1 : ∀ i : grid2.Coords, EltTy.bits .f32 = 32 ∨ (Rect.block (s := S8x128x1x1x1) S1x128x1x1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128x1x64x128.size a ≤ S8x128x4x128x128.size a
  hwx2_2 : ∀ i : grid2.Coords, EltTy.bits .f32 = 32 ∨ (Rect.block (s := S8x128x4x128x128) S1x128x1x64x128.size (cc2_transform_2 i) (hinb2_2 i)).WholeWords (EltTy.packing .f32)

variable [Facts₀]

def dot_S8x128_S128x128_S8x128_1_1_0_0_n_n : DotDims S8x128 S128x128 S8x128 where
  lhsContracting := [1]
  rhsContracting := [1]
  lhsNonContracting := [0]
  rhsNonContracting := [0]
  lhsBatch := []
  rhsBatch := []
  wf := dot_S8x128_S128x128_S8x128_1_1_0_0_n_n_wf

abbrev win0_0 : Pipeline.Window sig grid0 :=
  Pipeline.Window.ofSpec (Memref.whole main_arg0) S1x128x1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v1) S8x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S8x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S1x128x1x64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x128x1x1x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128x1x64x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x128x4x128x128 : Shape := ⟨5, ![8, 128, 4, 128, 128]⟩
abbrev S128x128 : Shape := ⟨2, ![128, 128]⟩
abbrev S128 : Shape := ⟨1, ![128]⟩
abbrev S_ : Shape := ⟨0, ![]⟩
abbrev S8x128 : Shape := ⟨2, ![8, 128]⟩
abbrev S1x128 : Shape := ⟨2, ![1, 128]⟩
abbrev S8x128x1x1x1 : Shape := ⟨5, ![8, 128, 1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x128x4x128x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S8x128, .f32⟩
  | .hbm, ⟨7, _⟩ => ⟨S8x128, .f32⟩
  | .hbm, ⟨8, _⟩ => ⟨S1x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S1x128, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S_, .f32⟩
  | .hbm, ⟨24, _⟩ => ⟨S8x128, .f32⟩
  | .hbm, ⟨25, _⟩ => ⟨S8x128, .f32⟩
  | .hbm, ⟨26, _⟩ => ⟨S8x128x1x1x1, .f32⟩
  | .hbm, ⟨27, _⟩ => ⟨S8x128x4x128x128, .f32⟩
  | .hbm, ⟨28, _⟩ => ⟨S8x128x4x128x128, .f32⟩
  | _, _ => ⟨S8x128x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S8x128x4x128x128_S8x128_d2_3_4 : S8x128x4x128x128.ReducesTo [2, 3, 4] S8x128
  h_S_ : 0 < S_.numel
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S8x128_S8x128x1x1x1_0_1 : S8x128.BroadcastsInDim S8x128x1x1x1 (![0, 1] : Fin 2 → Fin S8x128x1x1x1.rank)
  bcast_S8x128x1x1x1_S8x128x4x128x128_0_1_2_3_4 : S8x128x1x1x1.BroadcastsInDim S8x128x4x128x128 (![0, 1, 2, 3, 4] : Fin 5 → Fin S8x128x4x128x128.rank)
  dot_S8x128_S128x128_S8x128_1_1_0_0_n_n_wf : DotDims.WF S8x128 S128x128 S8x128 [1] [1] [0] [0] [] []

variable [Facts₀]

def dot_S8x128_S128x128_S8x128_1_1_0_0_n_n : DotDims S8x128 S128x128 S8x128 where
  lhsContracting := [1]
  rhsContracting := [1]
  lhsNonContracting := [0]
  rhsNonContracting := [0]
  lhsBatch := []
  rhsBatch := []
  wf := dot_S8x128_S128x128_S8x128_1_1_0_0_n_n_wf

class Facts : Prop extends Facts₀ where

variable [Facts]
-- ==== Proof.Bits.Pool.lean ====
/-
  Region 0 of @main (the global max-pool): grid 8 × 4 over (b, d). Window 0 is the [1,128,1,128,128] slab of `x` at
  (b, ·, d, ·, ·), fetched at every point. Window 1 is the output block [1,128,1,1] at (b, ·, 0, 0): its index moves
  only with `b`, so its staging buffer is carried over the four points of one `b` and written back after the last.
  The body reduces the slab by maximum along the last axis and then along the one before, from −∞; at `d = 0` it
  stores that over the whole output block, at `d ≠ 0` it stores the maximum of what the block holds and that.
  Exactly one of the two branches is taken at every point. Stated here, at any float instance and at any contents
  `V` the region is entered from: the branch conditions in closed form over the points, the body's triple in each
  case, what the output's staging buffer holds point by point (a recursion on the point), the pipeline's proof data
  and its body obligation.
-/
import proofs.«172904_j87479893885507_1_alg».proof.Proof.Gen.Kernel.Launch
import proofs.«172904_j87479893885507_1_alg».proof.Proof.Gen.Kernel.Skeleton
import proofs.«172904_j87479893885507_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_of_0 {c : Dev nD} (dat : Dat τ (Elt F) Unit ℕ (UR sig nD τ) ℕ cfg0 c)
    (hA : dat.A 0 = V c (Pipeline.arrRef spec0 0)) (hafter : ∀ t, dat.after 0 t = iblk V c 0 t) (t : Fin cfg0.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, over the points -/

/-- The reset branch (`d = 0`) is taken at the points ≡ 0 (mod 4), -/
theorem hcondA : ∀ t : Fin cfg0.N, k0_cond1 (grid0.coords t) = 1#1 ↔ t.val % 4 = 0 :=
  (by decide +kernel : ∀ t : Fin grid0.N, k0_cond1 (grid0.coords t) = 1#1 ↔ t.val % 4 = 0)
/-- the accumulating branch (`d ≠ 0`) at the others: -/
theorem hcondB : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- so the output window is idle at no point. -/
theorem live1' : ∀ i : grid0.Coords, cfg0.idle 1 i = false :=
  (by decide +kernel : ∀ i : grid0.Coords, idle0 1 i = false)

/-! ## The body's accesses: every load and store takes the whole buffer -/

abbrev rX : Rect S1x128x1x128x128 := Rect.unit (s := S1x128x1x128x128) ![0, 0, 0, 0, 0] S1x128x1x128x128.size inb_S1x128x1x128x128_S1x128x1x128x128_0_0_0_0_0
abbrev rO : Rect S1x128x1x1 := Rect.unit (s := S1x128x1x1) ![0, 0, 0, 0] S1x128x1x1.size inb_S1x128x1x1_S1x128x1x1_0_0_0_0

/-- What the reset branch leaves in the output's staging buffer: the slab's maxima. -/
def outA (x : Vec F S1x128x1x128x128 .f32) : Vec F S1x128x1x1 .f32 :=
  View.canon [⟨rO, k0_pay1 (View.ld x rX)⟩]
/-- What the accumulating branch leaves there, the buffer holding `xo`: the maximum of `xo` and the slab's maxima. -/
def outB (x : Vec F S1x128x1x128x128 .f32) (xo : Vec F S1x128x1x1 .f32) : Vec F S1x128x1x1 .f32 :=
  View.canon [⟨rO, k0_pay2 (View.ld x rX) (View.ld xo rO)⟩]

/-- The store covers the block. -/
theorem cover (p0 : Vec F S1x128x1x1 .f32) (y : S1x128x1x1.Idx) :
    ∃ pc ∈ ([⟨rO, p0⟩] : List (View.Piece (Elt F) S1x128x1x1 .f32)), y ∈ pc.1.set :=
  View.cover_of_tiled [⟨rO, p0⟩] S1x128x1x1.size (by rfl) y

/-! ## The body's triple, per branch -/

set_option maxHeartbeats 1000000 in
/-- At a point of the reset branch, on whole staging memrefs, the slab's at `x` and the output's at anything, the body
    runs to the continuation holding the slab's as it was and the output's at `outA x`. -/
theorem sound_kernel_A (c : Dev nD) (E : Set ℕ) (i : grid0.Coords) (hA : k0_cond1 i = 1#1) (hB : ¬ k0_cond2 i = 1#1)
    (a2 : Memref sig .tc .vmem S1x128x1x128x128 .f32) (h2 : a2.IsWhole) (a3 : Memref sig .tc .vmem S1x128x1x1 .f32) (h3 : a3.IsWhole)
    (x : Vec F S1x128x1x128x128 .f32) (K : PUnit → sProp 𝕄) :
    iprop(owns (c : Thread nD τ) a2 fullShare x ∗ (∃ d, owns (c : Thread nD τ) a3 fullShare d)
        ∗ (iprop(owns (c : Thread nD τ) a2 fullShare x ∗ owns (c : Thread nD τ) a3 fullShare (outA x)) -∗ K ⟨⟩))
      ⊢ wp frame (wpE (defs₀ (F := F)) Variants.none c none) E (cc0__maxpool_kernel i a2 h2 a3 h3) K := by
  simp only [cc0__maxpool_kernel_eq_skeleton]; unfold cc0__maxpool_kernel_skel
  unfold owns
  iintro ⟨⟨%f2, %hf2, H2⟩, ⟨%d3, %f3, -, H3⟩, Hk⟩
  subst hf2
  sl_exec (disch := first | exact hA | exact hB)
  sl_step
  iapply Hk
  isplitl [H2]
  · iexists f2; isplitr; · ipureintro; rfl
    iexact H2
  iexists _; isplitr
  swap; · iexact H3
  ipureintro
  exact View.read_writes_eq_canon _ _ _ (cover _)

set_option maxHeartbeats 1000000 in
/-- At a point of the accumulating branch, the slab's memref at `x` and the output's at `xo`, the body runs to the
    continuation holding the slab's as it was and the output's at `outB x xo`. -/
theorem sound_kernel_B (c : Dev nD) (E : Set ℕ) (i : grid0.Coords) (hA : ¬ k0_cond1 i = 1#1) (hB : k0_cond2 i = 1#1)
    (a2 : Memref sig .tc .vmem S1x128x1x128x128 .f32) (h2 : a2.IsWhole) (a3 : Memref sig .tc .vmem S1x128x1x1 .f32) (h3 : a3.IsWhole)
    (x : Vec F S1x128x1x128x128 .f32) (xo : Vec F S1x128x1x1 .f32) (K : PUnit → sProp 𝕄) :
    iprop(owns (c : Thread nD τ) a2 fullShare x ∗ owns (c : Thread nD τ) a3 fullShare xo
        ∗ (iprop(owns (c : Thread nD τ) a2 fullShare x ∗ owns (c : Thread nD τ) a3 fullShare (outB x xo)) -∗ K ⟨⟩))
      ⊢ wp frame (wpE (defs₀ (F := F)) Variants.none c none) E (cc0__maxpool_kernel i a2 h2 a3 h3) K := by
  simp only [cc0__maxpool_kernel_eq_skeleton]; unfold cc0__maxpool_kernel_skel
  unfold owns
  iintro ⟨⟨%f2, %hf2, H2⟩, ⟨%f3, %hf3, H3⟩, Hk⟩
  subst hf2; subst hf3
  sl_exec (disch := first | exact hA | exact hB)
  sl_step
  iapply Hk
  isplitl [H2]
  · iexists f2; isplitr; · ipureintro; rfl
    iexact H2
  iexists _; isplitr
  swap; · iexact H3
  ipureintro
  exact View.read_writes_eq_canon _ _ _ (cover _)

/-! ## What the output's staging buffer holds after each point -/

/-- The accumulation: after the point at position `n`, the slab's maxima where `n ≡ 0 (mod 4)`, else the maximum of
    what the point before left and the slab's maxima. -/
def outsAt (c : Dev nD) : (n : ℕ) → n < cfg0.N → Vec F S1x128x1x1 .f32
  | 0, hn => outA (iblk V c 0 ⟨0, hn⟩)
  | n + 1, hn =>
    if (n + 1) % 4 = 0 then outA (iblk V c 0 ⟨n + 1, hn⟩)
    else outB (iblk V c 0 ⟨n + 1, hn⟩) (outsAt c n (Nat.lt_of_succ_lt hn))

theorem outsAt_A (c : Dev nD) (t : Fin cfg0.N) (h0 : t.val % 4 = 0) :
    outsAt V c t.val t.isLt = outA (iblk V c 0 t) := by
  obtain ⟨n, hn⟩ := t
  cases n with
  | zero => exact rfl
  | succ n => exact (if_pos h0).trans rfl

theorem outsAt_B (c : Dev nD) (t : Fin cfg0.N) (h0 : ¬ t.val % 4 = 0) :
    outsAt V c t.val t.isLt = outB (iblk V c 0 t) (outsAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them; after the body at point `t` the
    slab's buffer at its block and the output's at `outsAt`; the invariant the scoped rest and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => outsAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = outsAt V c t.val t.isLt := by dsimp only [dat]

theorem before_0 (c : Dev nD) (t : Fin cfg0.N) (d) : (dat V c).before 0 t d = iblk V c 0 t :=
  before_of_0 V (dat V c) (A_eq V c 0) (after_0 V c) t d

/-- At a point of the accumulating branch the output's staging buffer holds what the body left at the point before:
    the point is not the first, and the buffer was not written back between. -/
theorem before_1_B (c : Dev nD) (t : Fin cfg0.N) (h0 : ¬ t.val % 4 = 0) (d) :
    (dat V c).before 1 t d = outsAt V c (t.val - 1) (Nat.lt_of_le_of_lt (Nat.sub_le _ _) t.isLt) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun i => live1' i) (fun _ _ => rfl)]
  dsimp only [dat]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

set_option maxHeartbeats 800000 in
/-- The body at any point: the slab's memref holds its block; the closed forms say which branch the point takes, and at
    an accumulating point the output's buffer holds what the point before left; so that branch's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  by_cases h0 : t.val % 4 = 0
  · rw [outsAt_A V c t h0]
    iintro ⟨HΦ, Ho, ⟨%d0, H0⟩, ⟨%d1, H1⟩⟩
    iapply (sound_kernel_A c Set.univ (grid0.coords t) ((hcondA t).mpr h0) (fun h => ((hcondB t).mp h) h0) _ _ _ _ (iblk V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [outsAt_B V c t h0]
    simp only [before_1_B V c t h0]
    iintro ⟨HΦ, Ho, ⟨%d0, H0⟩, ⟨%d1, H1⟩⟩
    iapply (sound_kernel_B c Set.univ (grid0.coords t) (fun h => h0 ((hcondA t).mp h)) ((hcondB t).mpr h0) _ _ _ _ (iblk V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation (c : Dev nD) : BodyObligation (dat (F := F) V c) (defs₀ (F := F)) Variants.none () Set.univ := fun t => by
  rw [bigSep_W0, bigSep_W0]
  have hi : cfg0.idle 1 (cfg0.grid.coords t) = false := live1' _
  rewrite [hi]
  exact sound_body V c t

end Cert.Kernel.Pool

end
-- ==== Proof.Bits.Gate.lean ====
/-
  Region 1 of @main (the gate): one grid point, five input windows — the pooled maxima [8,128], the two weight
  matrices [128,128] and the two bias rows [1,128] — and one output window [8,128]. Each window's block is its whole
  array. The body loads the five inputs whole, computes
      logistic (max (p · w1ᵀ + b1) 0 · w2ᵀ + b2)
  as one pure term of the loaded values, and stores it over the whole output block. Stated here, at any float
  instance and at any contents `V` the region is entered from: what each window's staging buffer holds after the
  body, the body's triple, the proof data of the pipeline and its body obligation.
-/
import proofs.«172904_j87479893885507_1_alg».proof.Proof.Gen.Kernel.Launch
import proofs.«172904_j87479893885507_1_alg».proof.Proof.Gen.Kernel.Skeleton
import proofs.«172904_j87479893885507_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before_of_0 {c : Dev nD} (dat : Dat τ (Elt F) Unit ℕ (UR sig nD τ) ℕ cfg1 c)
    (hA : dat.A 0 = V c (Pipeline.arrRef spec1 0)) (hafter : ∀ t, dat.after 0 t = iblk V c 0 t) (t : Fin cfg1.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c)
    (hA : dat.A 1 = V c (Pipeline.arrRef spec1 1)) (hafter : ∀ t, dat.after 1 t = iblk V c 1 t) (t : Fin cfg1.N) (d) :
    dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c)
    (hA : dat.A 2 = V c (Pipeline.arrRef spec1 2)) (hafter : ∀ t, dat.after 2 t = iblk V c 2 t) (t : Fin cfg1.N) (d) :
    dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c)
    (hA : dat.A 3 = V c (Pipeline.arrRef spec1 3)) (hafter : ∀ t, dat.after 3 t = iblk V c 3 t) (t : Fin cfg1.N) (d) :
    dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c)
    (hA : dat.A 4 = V c (Pipeline.arrRef spec1 4)) (hafter : ∀ t, dat.after 4 t = iblk V c 4 t) (t : Fin cfg1.N) (d) :
    dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev rP : Rect S8x128 := Rect.unit (s := S8x128) ![0, 0] S8x128.size inb_S8x128_S8x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output's staging buffer, from the five input blocks: its one store, as a piece. -/
def out (p : Vec F S8x128 .f32) (w1 : Vec F S128x128 .f32) (b1 : Vec F S1x128 .f32) (w2 : Vec F S128x128 .f32) (b2 : Vec F S1x128 .f32) :
    Vec F S8x128 .f32 :=
  View.canon [⟨rP, k1_pay1 (View.ld p rP) (View.ld w1 rW) (View.ld b1 rB) (View.ld w2 rW) (View.ld b2 rB)⟩]

/-- The store covers the block. -/
theorem cover (p0 : Vec F S8x128 .f32) (y : S8x128.Idx) :
    ∃ pc ∈ ([⟨rP, p0⟩] : List (View.Piece (Elt F) S8x128 .f32)), y ∈ pc.1.set :=
  View.cover_of_tiled [⟨rP, p0⟩] S8x128.size (by rfl) y

/-! ## The body's triple -/

set_option maxHeartbeats 1000000 in
/-- On whole staging memrefs, the inputs' at contents `p w1 b1 w2 b2` and the output's at anything, the body runs to
    the continuation holding the inputs' as they were and the output's at `out` of them. -/
theorem sound_kernel (c : Dev nD) (E : Set ℕ) (i : grid1.Coords)
    (a1 : Memref sig .tc .vmem S8x128 .f32) (h1 : a1.IsWhole) (a2 : Memref sig .tc .vmem S128x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S8x128 .f32) (h6 : a6.IsWhole)
    (p : Vec F S8x128 .f32) (w1 : Vec F S128x128 .f32) (b1 : Vec F S1x128 .f32) (w2 : Vec F S128x128 .f32) (b2 : Vec F S1x128 .f32)
    (K : PUnit → sProp 𝕄) :
    iprop(owns (c : Thread nD τ) a1 fullShare p ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare p ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (out p w1 b1 w2 b2)) -∗ K ⟨⟩))
      ⊢ wp frame (wpE (defs₀ (F := F)) Variants.none c none) E (cc1__gate_kernel i a1 h1 a2 h2 a3 h3 a4 h4 a5 h5 a6 h6) K := by
  simp only [cc1__gate_kernel_eq_skeleton]; unfold cc1__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

/-! ## The pipeline's proof data -/

/-- The proof data of pipeline 1 on core `c`: the arrays as the region finds them; after the body each input's buffer
    at its block and the output's at `out` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at the point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.Kernel.Gate

end
-- ==== Proof.Bits.Mul.lean ====
/-
  Region 2 of @main (the broadcast multiply): grid 8 × 4 × 2. Window 0 is the [1,128,1,64,128] block of `x` at
  (b, ·, d, h, ·), window 1 the [1,128,1,1,1] block of the gate at (b, ·, 0, 0, 0) — its index moves only with `b`,
  so it is fetched at one point in eight and stays in place between —, window 2 the output block at (b, ·, d, h, ·),
  written back at every point. The body loads both input blocks whole and stores their product, the gate block
  broadcast along the three trailing axes, over the whole output block. Stated here, at any float instance and at
  any contents `V` the region is entered from: what each staging buffer holds after the body, the body's triple,
  the pipeline's proof data and its body obligation.
-/
import proofs.«172904_j87479893885507_1_alg».proof.Proof.Gen.Kernel.Launch
import proofs.«172904_j87479893885507_1_alg».proof.Proof.Gen.Kernel.Skeleton
import proofs.«172904_j87479893885507_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Mul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its
    index has not moved), for any proof data whose array is `V`'s and whose body leaves the block in place. -/
theorem before_of_0 {c : Dev nD} (dat : Dat τ (Elt F) Unit ℕ (UR sig nD τ) ℕ cfg2 c)
    (hA : dat.A 0 = V c (Pipeline.arrRef spec2 0)) (hafter : ∀ t, dat.after 0 t = iblk V c 0 t) (t : Fin cfg2.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg2 c)
    (hA : dat.A 1 = V c (Pipeline.arrRef spec2 1)) (hafter : ∀ t, dat.after 1 t = iblk V c 1 t) (t : Fin cfg2.N) (d) :
    dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: both loads and the store take the whole buffer -/

abbrev rX : Rect S1x128x1x64x128 := Rect.unit (s := S1x128x1x64x128) ![0, 0, 0, 0, 0] S1x128x1x64x128.size inb_S1x128x1x64x128_S1x128x1x64x128_0_0_0_0_0
abbrev rG : Rect S1x128x1x1x1 := Rect.unit (s := S1x128x1x1x1) ![0, 0, 0, 0, 0] S1x128x1x1x1.size inb_S1x128x1x1x1_S1x128x1x1x1_0_0_0_0_0

/-- What the body leaves in the output's staging buffer, from the two input blocks: its one store, as a piece. -/
def out (x : Vec F S1x128x1x64x128 .f32) (g : Vec F S1x128x1x1x1 .f32) : Vec F S1x128x1x64x128 .f32 :=
  View.canon [⟨rX, k2_pay1 (View.ld x rX) (View.ld g rG)⟩]

/-- The store covers the block. -/
theorem cover (p0 : Vec F S1x128x1x64x128 .f32) (y : S1x128x1x64x128.Idx) :
    ∃ pc ∈ ([⟨rX, p0⟩] : List (View.Piece (Elt F) S1x128x1x64x128 .f32)), y ∈ pc.1.set :=
  View.cover_of_tiled [⟨rX, p0⟩] S1x128x1x64x128.size (by rfl) y

/-! ## The body's triple -/

set_option maxHeartbeats 1000000 in
/-- On whole staging memrefs, the inputs' at contents `x g` and the output's at anything, the body runs to the
    continuation holding the inputs' as they were and the output's at `out x g`. -/
theorem sound_kernel (c : Dev nD) (E : Set ℕ) (i : grid2.Coords)
    (a3 : Memref sig .tc .vmem S1x128x1x64x128 .f32) (h3 : a3.IsWhole) (a4 : Memref sig .tc .vmem S1x128x1x1x1 .f32) (h4 : a4.IsWhole)
    (a5 : Memref sig .tc .vmem S1x128x1x64x128 .f32) (h5 : a5.IsWhole)
    (x : Vec F S1x128x1x64x128 .f32) (g : Vec F S1x128x1x1x1 .f32) (K : PUnit → sProp 𝕄) :
    iprop(owns (c : Thread nD τ) a3 fullShare x ∗ owns (c : Thread nD τ) a4 fullShare g ∗ (∃ d, owns (c : Thread nD τ) a5 fullShare d)
        ∗ (iprop(owns (c : Thread nD τ) a3 fullShare x ∗ owns (c : Thread nD τ) a4 fullShare g
            ∗ owns (c : Thread nD τ) a5 fullShare (out x g)) -∗ K ⟨⟩))
      ⊢ wp frame (wpE (defs₀ (F := F)) Variants.none c none) E (cc2__mul_kernel i a3 h3 a4 h4 a5 h5) K := by
  simp only [cc2__mul_kernel_eq_skeleton]; unfold cc2__mul_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The proof data of pipeline 2 on core `c`: the arrays as the region finds them; after the body at point `t` each
    input's buffer at its block and the output's at `out` of the input blocks; the invariant the scoped rest and
    the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out (iblk V c 0 t) (iblk V c 1 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so the triple applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact sound_body V c t

end Cert.Kernel.Mul

end
-- ==== Proof.Bits.Run.lean ====
/-
  The run of the whole program. @main is five items: the max-pool region, three host reshapes, the gate region, one
  host reshape, the multiply region. The contents of every unscoped buffer at each boundary between items are a fold
  from the launch memory: a host stretch applies its operations; a region leaves its input arrays as entered and
  its output array at what its write-backs fold to, and touches nothing else. Each region is entered from "every
  unscoped buffer at the boundary's contents, the generator register at some state, nothing owed" and left at the
  same over the next boundary's contents. Every weakly fair execution then terminates, without a fault, in a state
  whose unscoped buffers hold the last boundary's contents; no item writes an argument array, so each ends as
  launched. Stated at any float instance.
-/
import proofs.«172904_j87479893885507_1_alg».proof.Proof.Gen.Kernel.Launch
import proofs.«172904_j87479893885507_1_alg».proof.Proof.Gen.Kernel.Skeleton
import proofs.«172904_j87479893885507_1_alg».proof.Proof.Gen.Kernel.Points
import proofs.«172904_j87479893885507_1_alg».proof.Proof.Gen.Kernel.Regions
import proofs.«172904_j87479893885507_1_alg».proof.Proof.Bits.Pool
import proofs.«172904_j87479893885507_1_alg».proof.Proof.Bits.Gate
import proofs.«172904_j87479893885507_1_alg».proof.Proof.Bits.Mul
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (an input as entered, the output at its write-backs
    folded), every other buffer as entered. -/
def W1 (c : Dev nD) : Valuation τ sig (Elt F) :=
  Pipeline.withArrays spec0 c (W0 m ρ c) fun w => (Pool.dat (V0 m ρ) c).arrAt w cfg0.N
theorem W1_arr (c : Dev nD) (w : Fin cfg0.W) :
    W1 m ρ c (Proc.devRef .tc (Pipeline.arrRef spec0 w)) = (Pool.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (Pool.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three reshapes (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (an input as entered, the output at its write-backs
    folded), every other buffer as entered. -/
def W3 (c : Dev nD) : Valuation τ sig (Elt F) :=
  Pipeline.withArrays spec1 c (W2 m ρ c) fun w => (Gate.dat (V2 m ρ) c).arrAt w cfg1.N
theorem W3_arr (c : Dev nD) (w : Fin cfg1.W) :
    W3 m ρ c (Proc.devRef .tc (Pipeline.arrRef spec1 w)) = (Gate.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (Gate.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the one reshape (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (an input as entered, the output at its write-backs
    folded), every other buffer as entered. -/
def W5 (c : Dev nD) : Valuation τ sig (Elt F) :=
  Pipeline.withArrays spec2 c (W4 m ρ c) fun w => (Mul.dat (V4 m ρ) c).arrAt w cfg2.N
theorem W5_arr (c : Dev nD) (w : Fin cfg2.W) :
    W5 m ρ c (Proc.devRef .tc (Pipeline.arrRef spec2 w)) = (Mul.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (Mul.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((Mul.dat (V4 m ρ) c).arrAt_in 0 rfl _).trans (Mul.A_eq (V4 m ρ) c 0))
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((Pool.dat (V0 m ρ) c).arrAt_in 0 rfl _).trans (Pool.A_eq (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := (W3_arr m ρ c 1).trans (((Gate.dat (V2 m ρ) c).arrAt_in 1 rfl _).trans (Gate.A_eq (V2 m ρ) c 1))
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := (W3_arr m ρ c 3).trans (((Gate.dat (V2 m ρ) c).arrAt_in 3 rfl _).trans (Gate.A_eq (V2 m ρ) c 3))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Pool.dat (V0 m ρ) c
  | ⟨1, _⟩ => fun c => Gate.dat (V2 m ρ) c
  | ⟨2, _⟩ => fun c => Mul.dat (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the boundary before it, left at the one
    after it. Its arrays are split out of the unscoped buffers and put back at the exit contents; the generator
    register goes into the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at the exit contents; the generator
    register goes into the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Gate.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one
    after it. Its arrays are split out of the unscoped buffers and put back at the exit contents; the generator
    register goes into the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Mul.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds, in every unscoped buffer, the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

end Cert.Kernel.Run

end
-- ==== Proof.Pool.lean ====
/-
  Region 0 of @main (the global max-pool): grid 8 × 4 over (b, d). Window 0 is the [1,128,1,128,128] slab of `x` at
  (b, ·, d, ·, ·), fetched at every point. Window 1 is the output block [1,128,1,1] at (b, ·, 0, 0): its index moves
  only with `b`, so its staging buffer is carried over the four points of one `b` and written back after the last.
  The body reduces the slab by maximum along the last axis and then along the one before, from −∞; at `d = 0` it
  stores that over the whole output block, at `d ≠ 0` it stores the maximum of what the block holds and that.
  Exactly one of the two branches is taken at every point. Stated here, at any float instance and at any contents
  `V` the region is entered from: the branch conditions in closed form over the points, the body's triple in each
  case, what the output's staging buffer holds point by point (a recursion on the point), the pipeline's proof data
  and its body obligation.
-/
import proofs.«172904_j87479893885507_1_alg».proof.Proof.Gen.KernelIdeal.Launch
import proofs.«172904_j87479893885507_1_alg».proof.Proof.Gen.KernelIdeal.Skeleton
import proofs.«172904_j87479893885507_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_of_0 {c : Dev nD} (dat : Dat τ (Elt F) Unit ℕ (UR sig nD τ) ℕ cfg0 c)
    (hA : dat.A 0 = V c (Pipeline.arrRef spec0 0)) (hafter : ∀ t, dat.after 0 t = iblk V c 0 t) (t : Fin cfg0.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, over the points -/

/-- The reset branch (`d = 0`) is taken at the points ≡ 0 (mod 4), -/
theorem hcondA : ∀ t : Fin cfg0.N, k0_cond1 (grid0.coords t) = 1#1 ↔ t.val % 4 = 0 :=
  (by decide +kernel : ∀ t : Fin grid0.N, k0_cond1 (grid0.coords t) = 1#1 ↔ t.val % 4 = 0)
/-- the accumulating branch (`d ≠ 0`) at the others: -/
theorem hcondB : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- so the output window is idle at no point. -/
theorem live1' : ∀ i : grid0.Coords, cfg0.idle 1 i = false :=
  (by decide +kernel : ∀ i : grid0.Coords, idle0 1 i = false)

/-! ## The body's accesses: every load and store takes the whole buffer -/

abbrev rX : Rect S1x128x1x128x128 := Rect.unit (s := S1x128x1x128x128) ![0, 0, 0, 0, 0] S1x128x1x128x128.size inb_S1x128x1x128x128_S1x128x1x128x128_0_0_0_0_0
abbrev rO : Rect S1x128x1x1 := Rect.unit (s := S1x128x1x1) ![0, 0, 0, 0] S1x128x1x1.size inb_S1x128x1x1_S1x128x1x1_0_0_0_0

/-- What the reset branch leaves in the output's staging buffer: the slab's maxima. -/
def outA (x : Vec F S1x128x1x128x128 .f32) : Vec F S1x128x1x1 .f32 :=
  View.canon [⟨rO, k0_pay1 (View.ld x rX)⟩]
/-- What the accumulating branch leaves there, the buffer holding `xo`: the maximum of `xo` and the slab's maxima. -/
def outB (x : Vec F S1x128x1x128x128 .f32) (xo : Vec F S1x128x1x1 .f32) : Vec F S1x128x1x1 .f32 :=
  View.canon [⟨rO, k0_pay2 (View.ld x rX) (View.ld xo rO)⟩]

/-- The store covers the block. -/
theorem cover (p0 : Vec F S1x128x1x1 .f32) (y : S1x128x1x1.Idx) :
    ∃ pc ∈ ([⟨rO, p0⟩] : List (View.Piece (Elt F) S1x128x1x1 .f32)), y ∈ pc.1.set :=
  View.cover_of_tiled [⟨rO, p0⟩] S1x128x1x1.size (by rfl) y

/-! ## The body's triple, per branch -/

set_option maxHeartbeats 1000000 in
/-- At a point of the reset branch, on whole staging memrefs, the slab's at `x` and the output's at anything, the body
    runs to the continuation holding the slab's as it was and the output's at `outA x`. -/
theorem sound_kernel_A (c : Dev nD) (E : Set ℕ) (i : grid0.Coords) (hA : k0_cond1 i = 1#1) (hB : ¬ k0_cond2 i = 1#1)
    (a2 : Memref sig .tc .vmem S1x128x1x128x128 .f32) (h2 : a2.IsWhole) (a3 : Memref sig .tc .vmem S1x128x1x1 .f32) (h3 : a3.IsWhole)
    (x : Vec F S1x128x1x128x128 .f32) (K : PUnit → sProp 𝕄) :
    iprop(owns (c : Thread nD τ) a2 fullShare x ∗ (∃ d, owns (c : Thread nD τ) a3 fullShare d)
        ∗ (iprop(owns (c : Thread nD τ) a2 fullShare x ∗ owns (c : Thread nD τ) a3 fullShare (outA x)) -∗ K ⟨⟩))
      ⊢ wp frame (wpE (defs₀ (F := F)) Variants.none c none) E (cc0__maxpool_kernel i a2 h2 a3 h3) K := by
  simp only [cc0__maxpool_kernel_eq_skeleton]; unfold cc0__maxpool_kernel_skel
  unfold owns
  iintro ⟨⟨%f2, %hf2, H2⟩, ⟨%d3, %f3, -, H3⟩, Hk⟩
  subst hf2
  sl_exec (disch := first | exact hA | exact hB)
  sl_step
  iapply Hk
  isplitl [H2]
  · iexists f2; isplitr; · ipureintro; rfl
    iexact H2
  iexists _; isplitr
  swap; · iexact H3
  ipureintro
  exact View.read_writes_eq_canon _ _ _ (cover _)

set_option maxHeartbeats 1000000 in
/-- At a point of the accumulating branch, the slab's memref at `x` and the output's at `xo`, the body runs to the
    continuation holding the slab's as it was and the output's at `outB x xo`. -/
theorem sound_kernel_B (c : Dev nD) (E : Set ℕ) (i : grid0.Coords) (hA : ¬ k0_cond1 i = 1#1) (hB : k0_cond2 i = 1#1)
    (a2 : Memref sig .tc .vmem S1x128x1x128x128 .f32) (h2 : a2.IsWhole) (a3 : Memref sig .tc .vmem S1x128x1x1 .f32) (h3 : a3.IsWhole)
    (x : Vec F S1x128x1x128x128 .f32) (xo : Vec F S1x128x1x1 .f32) (K : PUnit → sProp 𝕄) :
    iprop(owns (c : Thread nD τ) a2 fullShare x ∗ owns (c : Thread nD τ) a3 fullShare xo
        ∗ (iprop(owns (c : Thread nD τ) a2 fullShare x ∗ owns (c : Thread nD τ) a3 fullShare (outB x xo)) -∗ K ⟨⟩))
      ⊢ wp frame (wpE (defs₀ (F := F)) Variants.none c none) E (cc0__maxpool_kernel i a2 h2 a3 h3) K := by
  simp only [cc0__maxpool_kernel_eq_skeleton]; unfold cc0__maxpool_kernel_skel
  unfold owns
  iintro ⟨⟨%f2, %hf2, H2⟩, ⟨%f3, %hf3, H3⟩, Hk⟩
  subst hf2; subst hf3
  sl_exec (disch := first | exact hA | exact hB)
  sl_step
  iapply Hk
  isplitl [H2]
  · iexists f2; isplitr; · ipureintro; rfl
    iexact H2
  iexists _; isplitr
  swap; · iexact H3
  ipureintro
  exact View.read_writes_eq_canon _ _ _ (cover _)

/-! ## What the output's staging buffer holds after each point -/

/-- The accumulation: after the point at position `n`, the slab's maxima where `n ≡ 0 (mod 4)`, else the maximum of
    what the point before left and the slab's maxima. -/
def outsAt (c : Dev nD) : (n : ℕ) → n < cfg0.N → Vec F S1x128x1x1 .f32
  | 0, hn => outA (iblk V c 0 ⟨0, hn⟩)
  | n + 1, hn =>
    if (n + 1) % 4 = 0 then outA (iblk V c 0 ⟨n + 1, hn⟩)
    else outB (iblk V c 0 ⟨n + 1, hn⟩) (outsAt c n (Nat.lt_of_succ_lt hn))

theorem outsAt_A (c : Dev nD) (t : Fin cfg0.N) (h0 : t.val % 4 = 0) :
    outsAt V c t.val t.isLt = outA (iblk V c 0 t) := by
  obtain ⟨n, hn⟩ := t
  cases n with
  | zero => exact rfl
  | succ n => exact (if_pos h0).trans rfl

theorem outsAt_B (c : Dev nD) (t : Fin cfg0.N) (h0 : ¬ t.val % 4 = 0) :
    outsAt V c t.val t.isLt = outB (iblk V c 0 t) (outsAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them; after the body at point `t` the
    slab's buffer at its block and the output's at `outsAt`; the invariant the scoped rest and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => outsAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = outsAt V c t.val t.isLt := by dsimp only [dat]

theorem before_0 (c : Dev nD) (t : Fin cfg0.N) (d) : (dat V c).before 0 t d = iblk V c 0 t :=
  before_of_0 V (dat V c) (A_eq V c 0) (after_0 V c) t d

/-- At a point of the accumulating branch the output's staging buffer holds what the body left at the point before:
    the point is not the first, and the buffer was not written back between. -/
theorem before_1_B (c : Dev nD) (t : Fin cfg0.N) (h0 : ¬ t.val % 4 = 0) (d) :
    (dat V c).before 1 t d = outsAt V c (t.val - 1) (Nat.lt_of_le_of_lt (Nat.sub_le _ _) t.isLt) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun i => live1' i) (fun _ _ => rfl)]
  dsimp only [dat]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

set_option maxHeartbeats 800000 in
/-- The body at any point: the slab's memref holds its block; the closed forms say which branch the point takes, and at
    an accumulating point the output's buffer holds what the point before left; so that branch's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  by_cases h0 : t.val % 4 = 0
  · rw [outsAt_A V c t h0]
    iintro ⟨HΦ, Ho, ⟨%d0, H0⟩, ⟨%d1, H1⟩⟩
    iapply (sound_kernel_A c Set.univ (grid0.coords t) ((hcondA t).mpr h0) (fun h => ((hcondB t).mp h) h0) _ _ _ _ (iblk V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [outsAt_B V c t h0]
    simp only [before_1_B V c t h0]
    iintro ⟨HΦ, Ho, ⟨%d0, H0⟩, ⟨%d1, H1⟩⟩
    iapply (sound_kernel_B c Set.univ (grid0.coords t) (fun h => h0 ((hcondA t).mp h)) ((hcondB t).mpr h0) _ _ _ _ (iblk V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation (c : Dev nD) : BodyObligation (dat (F := F) V c) (defs₀ (F := F)) Variants.none () Set.univ := fun t => by
  rw [bigSep_W0, bigSep_W0]
  have hi : cfg0.idle 1 (cfg0.grid.coords t) = false := live1' _
  rewrite [hi]
  exact sound_body V c t

end Cert.KernelIdeal.Pool

end
-- ==== Proof.Gate.lean ====
/-
  Region 1 of @main (the gate): one grid point, five input windows — the pooled maxima [8,128], the two weight
  matrices [128,128] and the two bias rows [1,128] — and one output window [8,128]. Each window's block is its whole
  array. The body loads the five inputs whole, computes
      logistic (max (p · w1ᵀ + b1) 0 · w2ᵀ + b2)
  as one pure term of the loaded values, and stores it over the whole output block. Stated here, at any float
  instance and at any contents `V` the region is entered from: what each window's staging buffer holds after the
  body, the body's triple, the proof data of the pipeline and its body obligation.
-/
import proofs.«172904_j87479893885507_1_alg».proof.Proof.Gen.KernelIdeal.Launch
import proofs.«172904_j87479893885507_1_alg».proof.Proof.Gen.KernelIdeal.Skeleton
import proofs.«172904_j87479893885507_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before_of_0 {c : Dev nD} (dat : Dat τ (Elt F) Unit ℕ (UR sig nD τ) ℕ cfg1 c)
    (hA : dat.A 0 = V c (Pipeline.arrRef spec1 0)) (hafter : ∀ t, dat.after 0 t = iblk V c 0 t) (t : Fin cfg1.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c)
    (hA : dat.A 1 = V c (Pipeline.arrRef spec1 1)) (hafter : ∀ t, dat.after 1 t = iblk V c 1 t) (t : Fin cfg1.N) (d) :
    dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c)
    (hA : dat.A 2 = V c (Pipeline.arrRef spec1 2)) (hafter : ∀ t, dat.after 2 t = iblk V c 2 t) (t : Fin cfg1.N) (d) :
    dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c)
    (hA : dat.A 3 = V c (Pipeline.arrRef spec1 3)) (hafter : ∀ t, dat.after 3 t = iblk V c 3 t) (t : Fin cfg1.N) (d) :
    dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c)
    (hA : dat.A 4 = V c (Pipeline.arrRef spec1 4)) (hafter : ∀ t, dat.after 4 t = iblk V c 4 t) (t : Fin cfg1.N) (d) :
    dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev rP : Rect S8x128 := Rect.unit (s := S8x128) ![0, 0] S8x128.size inb_S8x128_S8x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output's staging buffer, from the five input blocks: its one store, as a piece. -/
def out (p : Vec F S8x128 .f32) (w1 : Vec F S128x128 .f32) (b1 : Vec F S1x128 .f32) (w2 : Vec F S128x128 .f32) (b2 : Vec F S1x128 .f32) :
    Vec F S8x128 .f32 :=
  View.canon [⟨rP, k1_pay1 (View.ld p rP) (View.ld w1 rW) (View.ld b1 rB) (View.ld w2 rW) (View.ld b2 rB)⟩]

/-- The store covers the block. -/
theorem cover (p0 : Vec F S8x128 .f32) (y : S8x128.Idx) :
    ∃ pc ∈ ([⟨rP, p0⟩] : List (View.Piece (Elt F) S8x128 .f32)), y ∈ pc.1.set :=
  View.cover_of_tiled [⟨rP, p0⟩] S8x128.size (by rfl) y

/-! ## The body's triple -/

set_option maxHeartbeats 1000000 in
/-- On whole staging memrefs, the inputs' at contents `p w1 b1 w2 b2` and the output's at anything, the body runs to
    the continuation holding the inputs' as they were and the output's at `out` of them. -/
theorem sound_kernel (c : Dev nD) (E : Set ℕ) (i : grid1.Coords)
    (a1 : Memref sig .tc .vmem S8x128 .f32) (h1 : a1.IsWhole) (a2 : Memref sig .tc .vmem S128x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S8x128 .f32) (h6 : a6.IsWhole)
    (p : Vec F S8x128 .f32) (w1 : Vec F S128x128 .f32) (b1 : Vec F S1x128 .f32) (w2 : Vec F S128x128 .f32) (b2 : Vec F S1x128 .f32)
    (K : PUnit → sProp 𝕄) :
    iprop(owns (c : Thread nD τ) a1 fullShare p ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare p ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (out p w1 b1 w2 b2)) -∗ K ⟨⟩))
      ⊢ wp frame (wpE (defs₀ (F := F)) Variants.none c none) E (cc1__gate_kernel i a1 h1 a2 h2 a3 h3 a4 h4 a5 h5 a6 h6) K := by
  simp only [cc1__gate_kernel_eq_skeleton]; unfold cc1__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

/-! ## The pipeline's proof data -/

/-- The proof data of pipeline 1 on core `c`: the arrays as the region finds them; after the body each input's buffer
    at its block and the output's at `out` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at the point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.KernelIdeal.Gate

end
-- ==== Proof.Mul.lean ====
/-
  Region 2 of @main (the broadcast multiply): grid 8 × 4 × 2. Window 0 is the [1,128,1,64,128] block of `x` at
  (b, ·, d, h, ·), window 1 the [1,128,1,1,1] block of the gate at (b, ·, 0, 0, 0) — its index moves only with `b`,
  so it is fetched at one point in eight and stays in place between —, window 2 the output block at (b, ·, d, h, ·),
  written back at every point. The body loads both input blocks whole and stores their product, the gate block
  broadcast along the three trailing axes, over the whole output block. Stated here, at any float instance and at
  any contents `V` the region is entered from: what each staging buffer holds after the body, the body's triple,
  the pipeline's proof data and its body obligation.
-/
import proofs.«172904_j87479893885507_1_alg».proof.Proof.Gen.KernelIdeal.Launch
import proofs.«172904_j87479893885507_1_alg».proof.Proof.Gen.KernelIdeal.Skeleton
import proofs.«172904_j87479893885507_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Mul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its
    index has not moved), for any proof data whose array is `V`'s and whose body leaves the block in place. -/
theorem before_of_0 {c : Dev nD} (dat : Dat τ (Elt F) Unit ℕ (UR sig nD τ) ℕ cfg2 c)
    (hA : dat.A 0 = V c (Pipeline.arrRef spec2 0)) (hafter : ∀ t, dat.after 0 t = iblk V c 0 t) (t : Fin cfg2.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg2 c)
    (hA : dat.A 1 = V c (Pipeline.arrRef spec2 1)) (hafter : ∀ t, dat.after 1 t = iblk V c 1 t) (t : Fin cfg2.N) (d) :
    dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: both loads and the store take the whole buffer -/

abbrev rX : Rect S1x128x1x64x128 := Rect.unit (s := S1x128x1x64x128) ![0, 0, 0, 0, 0] S1x128x1x64x128.size inb_S1x128x1x64x128_S1x128x1x64x128_0_0_0_0_0
abbrev rG : Rect S1x128x1x1x1 := Rect.unit (s := S1x128x1x1x1) ![0, 0, 0, 0, 0] S1x128x1x1x1.size inb_S1x128x1x1x1_S1x128x1x1x1_0_0_0_0_0

/-- What the body leaves in the output's staging buffer, from the two input blocks: its one store, as a piece. -/
def out (x : Vec F S1x128x1x64x128 .f32) (g : Vec F S1x128x1x1x1 .f32) : Vec F S1x128x1x64x128 .f32 :=
  View.canon [⟨rX, k2_pay1 (View.ld x rX) (View.ld g rG)⟩]

/-- The store covers the block. -/
theorem cover (p0 : Vec F S1x128x1x64x128 .f32) (y : S1x128x1x64x128.Idx) :
    ∃ pc ∈ ([⟨rX, p0⟩] : List (View.Piece (Elt F) S1x128x1x64x128 .f32)), y ∈ pc.1.set :=
  View.cover_of_tiled [⟨rX, p0⟩] S1x128x1x64x128.size (by rfl) y

/-! ## The body's triple -/

set_option maxHeartbeats 1000000 in
/-- On whole staging memrefs, the inputs' at contents `x g` and the output's at anything, the body runs to the
    continuation holding the inputs' as they were and the output's at `out x g`. -/
theorem sound_kernel (c : Dev nD) (E : Set ℕ) (i : grid2.Coords)
    (a3 : Memref sig .tc .vmem S1x128x1x64x128 .f32) (h3 : a3.IsWhole) (a4 : Memref sig .tc .vmem S1x128x1x1x1 .f32) (h4 : a4.IsWhole)
    (a5 : Memref sig .tc .vmem S1x128x1x64x128 .f32) (h5 : a5.IsWhole)
    (x : Vec F S1x128x1x64x128 .f32) (g : Vec F S1x128x1x1x1 .f32) (K : PUnit → sProp 𝕄) :
    iprop(owns (c : Thread nD τ) a3 fullShare x ∗ owns (c : Thread nD τ) a4 fullShare g ∗ (∃ d, owns (c : Thread nD τ) a5 fullShare d)
        ∗ (iprop(owns (c : Thread nD τ) a3 fullShare x ∗ owns (c : Thread nD τ) a4 fullShare g
            ∗ owns (c : Thread nD τ) a5 fullShare (out x g)) -∗ K ⟨⟩))
      ⊢ wp frame (wpE (defs₀ (F := F)) Variants.none c none) E (cc2__mul_kernel i a3 h3 a4 h4 a5 h5) K := by
  simp only [cc2__mul_kernel_eq_skeleton]; unfold cc2__mul_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The proof data of pipeline 2 on core `c`: the arrays as the region finds them; after the body at point `t` each
    input's buffer at its block and the output's at `out` of the input blocks; the invariant the scoped rest and
    the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out (iblk V c 0 t) (iblk V c 1 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so the triple applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact sound_body V c t

end Cert.KernelIdeal.Mul

end
-- ==== Proof.Run.lean ====
/-
  The run of the whole program. @main is five items: the max-pool region, three host reshapes, the gate region, one
  host reshape, the multiply region. The contents of every unscoped buffer at each boundary between items are a fold
  from the launch memory: a host stretch applies its operations; a region leaves its input arrays as entered and
  its output array at what its write-backs fold to, and touches nothing else. Each region is entered from "every
  unscoped buffer at the boundary's contents, the generator register at some state, nothing owed" and left at the
  same over the next boundary's contents. Every weakly fair execution then terminates, without a fault, in a state
  whose unscoped buffers hold the last boundary's contents; no item writes an argument array, so each ends as
  launched. Stated at any float instance.
-/
import proofs.«172904_j87479893885507_1_alg».proof.Proof.Gen.KernelIdeal.Launch
import proofs.«172904_j87479893885507_1_alg».proof.Proof.Gen.KernelIdeal.Skeleton
import proofs.«172904_j87479893885507_1_alg».proof.Proof.Gen.KernelIdeal.Points
import proofs.«172904_j87479893885507_1_alg».proof.Proof.Gen.KernelIdeal.Regions
import proofs.«172904_j87479893885507_1_alg».proof.Proof.Pool
import proofs.«172904_j87479893885507_1_alg».proof.Proof.Gate
import proofs.«172904_j87479893885507_1_alg».proof.Proof.Mul
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (an input as entered, the output at its write-backs
    folded), every other buffer as entered. -/
def W1 (c : Dev nD) : Valuation τ sig (Elt F) :=
  Pipeline.withArrays spec0 c (W0 m ρ c) fun w => (Pool.dat (V0 m ρ) c).arrAt w cfg0.N
theorem W1_arr (c : Dev nD) (w : Fin cfg0.W) :
    W1 m ρ c (Proc.devRef .tc (Pipeline.arrRef spec0 w)) = (Pool.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (Pool.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three reshapes (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (an input as entered, the output at its write-backs
    folded), every other buffer as entered. -/
def W3 (c : Dev nD) : Valuation τ sig (Elt F) :=
  Pipeline.withArrays spec1 c (W2 m ρ c) fun w => (Gate.dat (V2 m ρ) c).arrAt w cfg1.N
theorem W3_arr (c : Dev nD) (w : Fin cfg1.W) :
    W3 m ρ c (Proc.devRef .tc (Pipeline.arrRef spec1 w)) = (Gate.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (Gate.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the one reshape (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (an input as entered, the output at its write-backs
    folded), every other buffer as entered. -/
def W5 (c : Dev nD) : Valuation τ sig (Elt F) :=
  Pipeline.withArrays spec2 c (W4 m ρ c) fun w => (Mul.dat (V4 m ρ) c).arrAt w cfg2.N
theorem W5_arr (c : Dev nD) (w : Fin cfg2.W) :
    W5 m ρ c (Proc.devRef .tc (Pipeline.arrRef spec2 w)) = (Mul.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (Mul.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((Mul.dat (V4 m ρ) c).arrAt_in 0 rfl _).trans (Mul.A_eq (V4 m ρ) c 0))
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((Pool.dat (V0 m ρ) c).arrAt_in 0 rfl _).trans (Pool.A_eq (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := (W3_arr m ρ c 1).trans (((Gate.dat (V2 m ρ) c).arrAt_in 1 rfl _).trans (Gate.A_eq (V2 m ρ) c 1))
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := (W3_arr m ρ c 3).trans (((Gate.dat (V2 m ρ) c).arrAt_in 3 rfl _).trans (Gate.A_eq (V2 m ρ) c 3))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Pool.dat (V0 m ρ) c
  | ⟨1, _⟩ => fun c => Gate.dat (V2 m ρ) c
  | ⟨2, _⟩ => fun c => Mul.dat (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the boundary before it, left at the one
    after it. Its arrays are split out of the unscoped buffers and put back at the exit contents; the generator
    register goes into the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at the exit contents; the generator
    register goes into the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Gate.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one
    after it. Its arrays are split out of the unscoped buffers and put back at the exit contents; the generator
    register goes into the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Mul.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds, in every unscoped buffer, the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

end Cert.KernelIdeal.Run

end
-- ==== Proof.Spec.lean ====
/-
  The specification, at the ideal instance (a float is an extended real): the result array as one function of the
  five argument arrays, index by index.
      pooled x b c   = the supremum of x(b, c, d, h, w) over all (d, h, w)           — the global max-pool
      hidden … b o   = max (∑ₖ pooled x b k · w1(o, k) + b1(o)) 0                    — first linear layer, then relu
      gate … b o     = logistic (∑ₖ hidden … b k · w2(o, k) + b2(o))                 — second linear layer, then sigmoid
      result … (b, c, d, h, w) = x(b, c, d, h, w) · gate … b c
  Both programs compute exactly this; nothing here mentions either.
-/
import Idealize.ShloMosaic.PureOps.Ideal
import Idealize.ShloMosaic.Lib.ValueIdx

noncomputable section

namespace Cert.Spec

open Idealize.ShloMosaic Idealize.ShloMosaic.ValueIdx

abbrev SX : Shape := ⟨5, ![8, 128, 4, 128, 128]⟩
abbrev SW : Shape := ⟨2, ![128, 128]⟩
abbrev SB : Shape := ⟨1, ![128]⟩

/-- The global max-pool: the supremum of channel `c` of batch `b` over its 4 × 128 × 128 positions. -/
def pooled (x : SX.Idx → EReal) (b : Fin 8) (c : Fin 128) : EReal :=
  Finset.univ.sup fun p : Fin 4 × Fin 128 × Fin 128 => x (ix5 b c p.1 p.2.1 p.2.2)

/-- One linear layer over the channels, from a row `v` of 128 values: `∑ₖ v k · w(o, k) + bias(o)`. -/
def linear (v : Fin 128 → EReal) (w : SW.Idx → EReal) (bias : SB.Idx → EReal) (o : Fin 128) : EReal :=
  ∑ k : Fin 128, v k * w (ix2 o k) + bias (ix1 o)

/-- The hidden layer: the first linear layer of the pooled maxima, then relu. -/
def hidden (x : SX.Idx → EReal) (w1 : SW.Idx → EReal) (b1 : SB.Idx → EReal) (b : Fin 8) (o : Fin 128) : EReal :=
  max (linear (pooled x b) w1 b1 o) 0

/-- The gate: the second linear layer of the hidden layer, then the logistic function. -/
def gate (x : SX.Idx → EReal) (w1 : SW.Idx → EReal) (b1 : SB.Idx → EReal) (w2 : SW.Idx → EReal) (b2 : SB.Idx → EReal)
    (b : Fin 8) (o : Fin 128) : EReal :=
  Ideal.logistic (linear (hidden x w1 b1 b) w2 b2 o)

/-- The result: every position of channel `c` of batch `b` scaled by that channel's gate. -/
def result (x : SX.Idx → EReal) (w1 : SW.Idx → EReal) (b1 : SB.Idx → EReal) (w2 : SW.Idx → EReal) (b2 : SB.Idx → EReal) :
    SX.Idx → EReal :=
  fun i => x i * gate x w1 b1 w2 b2 (i 0) (i 1)

theorem result_apply (x : SX.Idx → EReal) (w1 : SW.Idx → EReal) (b1 : SB.Idx → EReal) (w2 : SW.Idx → EReal) (b2 : SB.Idx → EReal)
    (b : Fin 8) (c : Fin 128) (d : Fin 4) (h w : Fin 128) :
    result x w1 b1 w2 b2 (ix5 b c d h w) = x (ix5 b c d h w) * gate x w1 b1 w2 b2 b c := rfl

end Cert.Spec

end
-- ==== Proof.PoolValue.lean ====
/-
  What region 0 leaves in the pooled array [8,128,1,1]: entry (b, c, 0, 0) is the supremum of x(b, c, ·, ·, ·).
  The output block of batch `b` is written back once, after the point (b, 3); what the staging buffer then holds is
  the running maximum over d = 0 … 3 of each slab's maxima (lane maximum, then sublane maximum, from −∞), and a
  maximum of maxima from −∞ over the extended reals is the supremum over all positions.
-/
import proofs.«172904_j87479893885507_1_alg».proof.Proof.Pool
import proofs.«172904_j87479893885507_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array the region reads, as it finds it, and the pooled array after it, each at its literal type. -/
abbrev xArr (c : Dev nD) : S8x128x4x128x128.Idx → EReal := V c main_arg0
abbrev pArr (c : Dev nD) : S8x128x1x1.Idx → EReal := (Pool.dat V c).arrAt 1 cfg0.N

/-! ## The body's payloads at an index -/

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The accumulators' word is −∞, the bottom of the extended reals. -/
theorem negInf : Ideal.ofBits .f32 0xFF800000#32 = (⊥ : EReal) := by
  simp [Ideal.ofBits, Ideal.ieee]

/-- The index the lane reduction reads at (0, ch, 0, k), lane w, is (0, ch, 0, k, w). -/
theorem lift_lane (ch : Fin 128) (k : Fin 128) (w : Fin 128) :
    reduces_S1x128x1x128x128_S1x128x1x128.lift (ix4 (0 : Fin 1) ch (0 : Fin 1) k) w = ix5 (0 : Fin 1) ch (0 : Fin 1) k w := by
  funext a
  apply Fin.ext
  match a with
  | ⟨0, _⟩ => rfl
  | ⟨1, _⟩ => rfl
  | ⟨2, _⟩ => rfl
  | ⟨3, _⟩ => rfl
  | ⟨4, _⟩ => rfl

/-- The index the sublane reduction reads at (0, ch, 0), sublane k, is (0, ch, 0, k). -/
theorem lift_sublane (ch : Fin 128) (k : Fin 128) :
    reduces_S1x128x1x128_S1x128x1.lift (ix3 (0 : Fin 1) ch (0 : Fin 1)) k = ix4 (0 : Fin 1) ch (0 : Fin 1) k := by
  funext a
  apply Fin.ext
  match a with
  | ⟨0, _⟩ => rfl
  | ⟨1, _⟩ => rfl
  | ⟨2, _⟩ => rfl
  | ⟨3, _⟩ => rfl

/-- The maximum along the lanes from −∞ is the supremum over the lanes. -/
theorem lane_max (v : FVec Ideal S1x128x1x128x128 .f32) (ch : Fin 128) (k : Fin 128) :
    multiReduction .maximumf [4] S1x128x1x128 v 0xFF800000#32 reduces_S1x128x1x128x128_S1x128x1x128 (.inl rfl) rfl
        (ix4 (0 : Fin 1) ch (0 : Fin 1) k)
      = Finset.univ.sup fun w : Fin 128 => v (ix5 (0 : Fin 1) ch (0 : Fin 1) k w) := by
  refine (Ideal.multiReduction_maximumf_single v _ _ _ _ _).trans ?_
  show Finset.fold max (Ideal.ofBits .f32 0xFF800000#32)
    (fun w : Fin 128 => v (reduces_S1x128x1x128x128_S1x128x1x128.lift (ix4 (0 : Fin 1) ch (0 : Fin 1) k) w)) Finset.univ = _
  rw [negInf]
  simp only [lift_lane]
  rfl

/-- The maximum along the sublanes from −∞ is the supremum over the sublanes. -/
theorem sublane_max (v : FVec Ideal S1x128x1x128 .f32) (ch : Fin 128) :
    multiReduction .maximumf [3] S1x128x1 v 0xFF800000#32 reduces_S1x128x1x128_S1x128x1 (.inl rfl) rfl
        (ix3 (0 : Fin 1) ch (0 : Fin 1))
      = Finset.univ.sup fun k : Fin 128 => v (ix4 (0 : Fin 1) ch (0 : Fin 1) k) := by
  refine (Ideal.multiReduction_maximumf_single v _ _ _ _ _).trans ?_
  show Finset.fold max (Ideal.ofBits .f32 0xFF800000#32)
    (fun k : Fin 128 => v (reduces_S1x128x1x128_S1x128x1.lift (ix3 (0 : Fin 1) ch (0 : Fin 1)) k)) Finset.univ = _
  rw [negInf]
  simp only [lift_sublane]
  rfl

/-- The supremum of channel `ch` of one slab over its 128 × 128 positions. -/
def slabMax (x : Vec Ideal S1x128x1x128x128 .f32) (ch : Fin 128) : EReal :=
  Finset.univ.sup fun p : Fin 128 × Fin 128 => x (ix5 (0 : Fin 1) ch (0 : Fin 1) p.1 p.2)

/-- The slab's maxima, lane maximum then sublane maximum from −∞, at channel `ch`: the supremum over the slab's
    positions (a supremum of suprema is the supremum over the pairs). -/
theorem pay1_apply (x : Vec Ideal S1x128x1x128x128 .f32) (ch : Fin 128) :
    k0_pay1 (F := Ideal) x (ix4 (0 : Fin 1) ch (0 : Fin 1) (0 : Fin 1)) = slabMax x ch := by
  unfold k0_pay1
  refine (shapeCast_apply _ _ (ix4 (0 : Fin 1) ch (0 : Fin 1) (0 : Fin 1)) (ix3 (0 : Fin 1) ch (0 : Fin 1)) ?_).trans ?_
  · rw [Shape.rowMajor_val_three, Shape.rowMajor_val_four]
    show (0 * 128 + ch.val) * 1 + 0 = ((0 * 128 + ch.val) * 1 + 0) * 1 + 0
    omega
  refine (sublane_max _ ch).trans ?_
  refine (Finset.sup_congr rfl fun k _ => lane_max x ch k).trans ?_
  unfold slabMax
  rw [← Finset.univ_product_univ, Finset.sup_product_left]

/-- The accumulating payload at channel `ch`: the maximum of what the block held and the slab's supremum. -/
theorem pay2_apply (x : Vec Ideal S1x128x1x128x128 .f32) (xo : Vec Ideal S1x128x1x1 .f32) (ch : Fin 128) :
    k0_pay2 (F := Ideal) x xo (ix4 (0 : Fin 1) ch (0 : Fin 1) (0 : Fin 1))
      = max (xo (ix4 (0 : Fin 1) ch (0 : Fin 1) (0 : Fin 1))) (slabMax x ch) := by
  unfold k0_pay2
  show max (shapeCast S1x128x1x1 xo shapeCasts_S1x128x1x1_S1x128x1x1 (ix4 (0 : Fin 1) ch (0 : Fin 1) (0 : Fin 1)))
      (k0_pay1 (F := Ideal) x (ix4 (0 : Fin 1) ch (0 : Fin 1) (0 : Fin 1))) = _
  rw [shapeCast_self, pay1_apply]

/-- What the reset branch leaves, at channel `ch`: the one store covers the block and its load reads the whole slab. -/
theorem outA_apply (x : Vec Ideal S1x128x1x128x128 .f32) (ch : Fin 128) :
    Pool.outA x (ix4 (0 : Fin 1) ch (0 : Fin 1) (0 : Fin 1)) = slabMax x ch := by
  unfold Pool.outA
  rw [View.canon_unit_zero hz4, View.ld_unit_zero (S := S1x128x1x128x128) hz5]
  exact pay1_apply x ch

/-- What the accumulating branch leaves, at channel `ch`. -/
theorem outB_apply (x : Vec Ideal S1x128x1x128x128 .f32) (xo : Vec Ideal S1x128x1x1 .f32) (ch : Fin 128) :
    Pool.outB x xo (ix4 (0 : Fin 1) ch (0 : Fin 1) (0 : Fin 1))
      = max (xo (ix4 (0 : Fin 1) ch (0 : Fin 1) (0 : Fin 1))) (slabMax x ch) := by
  unfold Pool.outB
  rw [View.canon_unit_zero hz4, View.ld_unit_zero (S := S1x128x1x128x128) hz5, View.ld_unit_zero (S := S1x128x1x1) hz4]
  exact pay2_apply x xo ch

/-! ## From the slabs to the array the region reads -/

/-- Window 0's block index at point `t` is (t / 4, 0, t % 4, 0, 0); window 1's is (t / 4, 0, 0, 0). -/
theorem idx_facts : ∀ t : Fin cfg0.N, win0_0.index t (0 : Fin 5) = t.val / 4 ∧ win0_0.index t (1 : Fin 5) = 0
    ∧ win0_0.index t (2 : Fin 5) = t.val % 4 ∧ win0_0.index t (3 : Fin 5) = 0 ∧ win0_0.index t (4 : Fin 5) = 0
    ∧ win0_1.index t (0 : Fin 4) = t.val / 4 ∧ win0_1.index t (1 : Fin 4) = 0
    ∧ win0_1.index t (2 : Fin 4) = 0 ∧ win0_1.index t (3 : Fin 4) = 0 :=
  (by decide +kernel : ∀ t : Fin grid0.N, _)

/-- The supremum of channel `ch` of batch `b` over the 128 × 128 positions at depth `d`. -/
def chanMax (x : S8x128x4x128x128.Idx → EReal) (b : Fin 8) (ch : Fin 128) (d : Fin 4) : EReal :=
  Finset.univ.sup fun p : Fin 128 × Fin 128 => x (ix5 b ch d p.1 p.2)

/-- The slab at point `t` = (b, d), at (0, ch, 0, h, w), is `x` at (b, ch, d, h, w): a block's coordinate is its index
    times its size plus the coordinate inside. -/
theorem iblk_apply (c : Dev nD) (t : Fin cfg0.N) (b : Fin 8) (d : Fin 4) (hb : b.val = t.val / 4) (hd : d.val = t.val % 4)
    (ch h w : Fin 128) :
    (Pool.iblk V c 0 t : Vec Ideal S1x128x1x128x128 .f32) (ix5 (0 : Fin 1) ch (0 : Fin 1) h w) = xArr V c (ix5 b ch d h w) := by
  obtain ⟨e0, e1, e2, e3, e4, -⟩ := idx_facts t
  unfold Pool.iblk
  rw [View.read_apply]
  show V c main_arg0 _ = V c main_arg0 _
  congr 1
  funext a
  apply Fin.ext
  match a with
  | ⟨0, _⟩ => show win0_0.index t (0 : Fin 5) * 1 + 1 * 0 = b.val; omega
  | ⟨1, _⟩ => show win0_0.index t (1 : Fin 5) * 128 + 1 * ch.val = ch.val; omega
  | ⟨2, _⟩ => show win0_0.index t (2 : Fin 5) * 1 + 1 * 0 = d.val; omega
  | ⟨3, _⟩ => show win0_0.index t (3 : Fin 5) * 128 + 1 * h.val = h.val; omega
  | ⟨4, _⟩ => show win0_0.index t (4 : Fin 5) * 128 + 1 * w.val = w.val; omega

/-- So the supremum of the slab at point (b, d) is the supremum of `x` at batch `b`, depth `d`. -/
theorem slabMax_iblk (c : Dev nD) (t : Fin cfg0.N) (b : Fin 8) (d : Fin 4) (hb : b.val = t.val / 4) (hd : d.val = t.val % 4)
    (ch : Fin 128) : slabMax (Pool.iblk V c 0 t) ch = chanMax (xArr V c) b ch d := by
  unfold slabMax chanMax
  exact Finset.sup_congr rfl fun p _ => iblk_apply V c t b d hb hd ch p.1 p.2

/-! ## The staging buffer over the four points of one batch -/

/-- The same staging contents named at equal positions. -/
theorem outsAt_congr (c : Dev nD) (n n' : ℕ) (e : n = n') (h : n < cfg0.N) (h' : n' < cfg0.N) :
    Pool.outsAt V c n h = Pool.outsAt V c n' h' := by
  subst e; rfl

/-- At a reset point the staging buffer holds that slab's channel suprema. -/
theorem point_A (c : Dev nD) (t : Fin cfg0.N) (h0 : t.val % 4 = 0) (b : Fin 8) (d : Fin 4) (hb : b.val = t.val / 4)
    (hd : d.val = t.val % 4) (ch : Fin 128) :
    (Pool.outsAt V c t.val t.isLt : Vec Ideal S1x128x1x1 .f32) (ix4 (0 : Fin 1) ch (0 : Fin 1) (0 : Fin 1))
      = chanMax (xArr V c) b ch d := by
  rw [Pool.outsAt_A V c t h0, outA_apply, slabMax_iblk V c t b d hb hd]

/-- At an accumulating point it holds the maximum of what the point before left and that slab's channel suprema. -/
theorem point_B (c : Dev nD) (t : Fin cfg0.N) (h0 : ¬ t.val % 4 = 0) (b : Fin 8) (d : Fin 4) (hb : b.val = t.val / 4)
    (hd : d.val = t.val % 4) (ch : Fin 128) :
    (Pool.outsAt V c t.val t.isLt : Vec Ideal S1x128x1x1 .f32) (ix4 (0 : Fin 1) ch (0 : Fin 1) (0 : Fin 1))
      = max ((Pool.outsAt V c (t.val - 1) (Nat.lt_of_le_of_lt (Nat.sub_le _ _) t.isLt) : Vec Ideal S1x128x1x1 .f32)
          (ix4 (0 : Fin 1) ch (0 : Fin 1) (0 : Fin 1))) (chanMax (xArr V c) b ch d) := by
  rw [Pool.outsAt_B V c t h0, outB_apply, slabMax_iblk V c t b d hb hd]

/-- The depths up to `d`. -/
abbrev upTo (d : ℕ) : Finset (Fin 4) := Finset.univ.filter fun d' : Fin 4 => d'.val ≤ d

theorem upTo_zero : upTo 0 = {(0 : Fin 4)} := by decide
theorem upTo_succ (d : ℕ) (hd : d + 1 < 4) : upTo (d + 1) = insert (⟨d + 1, hd⟩ : Fin 4) (upTo d) := by
  ext d'
  simp only [upTo, Finset.mem_filter, Finset.mem_univ, true_and, Finset.mem_insert, Fin.ext_iff]
  omega
theorem upTo_three : upTo 3 = Finset.univ :=
  Finset.filter_true_of_mem fun d' _ => by have := d'.isLt; omega

/-- After the point (b, d) the staging buffer holds, per channel, the supremum over the depths up to `d`: by
    induction on `d`, the reset at `d = 0`, a maximum with the next depth's supremum after. -/
theorem running (c : Dev nD) (b : Fin 8) (ch : Fin 128) :
    ∀ (d : ℕ) (hd : d < 4) (h : 4 * b.val + d < cfg0.N),
      (Pool.outsAt V c (4 * b.val + d) h : Vec Ideal S1x128x1x1 .f32) (ix4 (0 : Fin 1) ch (0 : Fin 1) (0 : Fin 1))
        = (upTo d).sup (chanMax (xArr V c) b ch)
  | 0, hd, h => by
    rw [upTo_zero, Finset.sup_singleton]
    exact point_A V c ⟨4 * b.val + 0, h⟩ (by show (4 * b.val + 0) % 4 = 0; omega) b 0
      (by show b.val = (4 * b.val + 0) / 4; omega) (by show (0 : ℕ) = (4 * b.val + 0) % 4; omega) ch
  | d + 1, hd, h => by
    have hB : ¬ (⟨4 * b.val + (d + 1), h⟩ : Fin cfg0.N).val % 4 = 0 := by show ¬ (4 * b.val + (d + 1)) % 4 = 0; omega
    have hN : cfg0.N = 32 := N_0
    have h' : 4 * b.val + d < cfg0.N := by omega
    refine (point_B V c ⟨4 * b.val + (d + 1), h⟩ hB b ⟨d + 1, hd⟩
      (by show b.val = (4 * b.val + (d + 1)) / 4; omega) (by show d + 1 = (4 * b.val + (d + 1)) % 4; omega) ch).trans ?_
    rw [upTo_succ d hd, Finset.sup_insert, max_comm]
    congr 1
    exact (congrFun (outsAt_congr V c _ _ (by show 4 * b.val + (d + 1) - 1 = 4 * b.val + d; omega) _ h') _).trans
      (running c b ch d (by omega) h')

/-- The supremum over the four depths of the channel suprema is the pooled value. -/
theorem sup_chanMax (x : S8x128x4x128x128.Idx → EReal) (b : Fin 8) (ch : Fin 128) :
    Finset.univ.sup (chanMax x b ch) = Cert.Spec.pooled x b ch := by
  unfold Cert.Spec.pooled
  rw [← Finset.univ_product_univ, Finset.sup_product_left]
  rfl

/-! ## The write-backs and the array -/

/-- The whole pooled array, as one function of the array the region reads. -/
def pooledArr (c : Dev nD) : S8x128x1x1.Idx → EReal := fun j => Cert.Spec.pooled (xArr V c) (j 0) (j 1)

/-- Two output blocks agree when they agree at every channel: a block's other three coordinates are 0. -/
theorem ext_block (f g : S1x128x1x1.Idx → EReal)
    (h : ∀ ch : Fin 128, f (ix4 (0 : Fin 1) ch (0 : Fin 1) (0 : Fin 1)) = g (ix4 (0 : Fin 1) ch (0 : Fin 1) (0 : Fin 1))) :
    f = g := by
  funext y
  have e : y = ix4 (0 : Fin 1) (y 1) (0 : Fin 1) (0 : Fin 1) := by
    funext a
    apply Fin.ext
    match a with
    | ⟨0, _⟩ => have h0 : (y 0).val < 1 := (y 0).isLt; show (y 0).val = 0; omega
    | ⟨1, _⟩ => rfl
    | ⟨2, _⟩ => have h2 : (y 2).val < 1 := (y 2).isLt; show (y 2).val = 0; omega
    | ⟨3, _⟩ => have h3 : (y 3).val < 1 := (y 3).isLt; show (y 3).val = 0; omega
  rw [e]
  exact h (y 1)

/-- What a point (b, 3) writes back is block `b` of the pooled array: the staging buffer there holds the supremum over
    all four depths. -/
theorem writeback_eq (c : Dev nD) (t : Fin cfg0.N) (hf : (cfg0.win 1).flush t = true) :
    (Pool.dat V c).flushed 1 t = ((cfg0.win 1).blk t).view.read (Elt Ideal) (pooledArr V c) := by
  have hN : cfg0.N = 32 := N_0
  have h3 : t.val % 4 = 3 := (flush0_1 t).mp hf
  have hlt : t.val < 32 := lt_of_lt_of_eq t.isLt hN
  obtain ⟨-, -, -, -, -, e0, e1, e2, e3⟩ := idx_facts t
  show (cfg0.win 1).cut (grid0.coords t) ((Pool.dat V c).after 1 t) = _
  rw [Pool.after_1]
  refine ext_block _ _ fun ch => ?_
  have hb : t.val / 4 < 8 := by omega
  have hemb : ((cfg0.win 1).blk t).view.emb (ix4 (0 : Fin 1) ch (0 : Fin 1) (0 : Fin 1))
      = ix4 (⟨t.val / 4, hb⟩ : Fin 8) ch (0 : Fin 1) (0 : Fin 1) := by
    funext a
    apply Fin.ext
    match a with
    | ⟨0, _⟩ => show win0_1.index t (0 : Fin 4) * 1 + 1 * 0 = t.val / 4; omega
    | ⟨1, _⟩ => show win0_1.index t (1 : Fin 4) * 128 + 1 * ch.val = ch.val; omega
    | ⟨2, _⟩ => show win0_1.index t (2 : Fin 4) * 1 + 1 * 0 = 0; omega
    | ⟨3, _⟩ => show win0_1.index t (3 : Fin 4) * 1 + 1 * 0 = 0; omega
  show (Pool.outsAt V c t.val t.isLt : Vec Ideal S1x128x1x1 .f32) (ix4 (0 : Fin 1) ch (0 : Fin 1) (0 : Fin 1))
    = pooledArr V c (((cfg0.win 1).blk t).view.emb (ix4 (0 : Fin 1) ch (0 : Fin 1) (0 : Fin 1)))
  rw [hemb]
  have h' : 4 * (⟨t.val / 4, hb⟩ : Fin 8).val + 3 < cfg0.N := by show 4 * (t.val / 4) + 3 < cfg0.N; omega
  refine (congrFun (outsAt_congr V c _ _ (by show t.val = 4 * (t.val / 4) + 3; omega) _ h') _).trans ?_
  rw [running V c ⟨t.val / 4, hb⟩ ch 3 (by omega) h', upTo_three, sup_chanMax]
  rfl

/-- Row `b` of the pooled array is under the block the point (b, 3) writes back. -/
theorem covered (i : S8x128x1x1.Idx) :
    ∃ t : Fin cfg0.N, (cfg0.win 1).flush t = true ∧ i ∈ ((cfg0.win 1).blk t).view.set := by
  have hN : cfg0.N = 32 := N_0
  have hi0 : (i 0).val < 8 := (i 0).isLt
  have hi1 : (i 1).val < 128 := (i 1).isLt
  have hi2 : (i 2).val < 1 := (i 2).isLt
  have hi3 : (i 3).val < 1 := (i 3).isLt
  obtain ⟨t, ht⟩ : ∃ t : Fin cfg0.N, t.val = 4 * (i 0).val + 3 := ⟨⟨4 * (i 0).val + 3, by omega⟩, rfl⟩
  obtain ⟨-, -, -, -, -, e0, e1, e2, e3⟩ := idx_facts t
  refine ⟨t, (flush0_1 t).mpr (by omega), ?_⟩
  show i ∈ ((View.whole main_v0).slice (win0_1.rect t)).set
  rw [View.set_slice_whole, Rect.mem_set_unit]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- So the pooled array ends holding the pooled function: the eight write-backs cover it. -/
theorem final_eq (c : Dev nD) : pArr V c = pooledArr V c :=
  (Pool.dat V c).arrAt_eq_of_cover 1 (pooledArr V c) (writeback_eq V c) covered

/-- After region 0 the pooled array holds, at (b, c, 0, 0), the supremum of channel `c` of batch `b` of `x` as the
    region found it. -/
theorem final_apply (c : Dev nD) (b : Fin 8) (ch : Fin 128) (u v : Fin 1) :
    pArr V c (ix4 b ch u v) = Cert.Spec.pooled (xArr V c) b ch := by
  rw [final_eq]
  rfl

end Cert.KernelIdeal.PoolValue

end
-- ==== Proof.GateValue.lean ====
/-
  What region 1 leaves in the gate array [8,128]: entry (b, o) is
      logistic (∑ₖ max (∑ⱼ p(b, j) · w1(k, j) + b1(0, k)) 0 · w2(o, k) + b2(0, o))
  of the five arrays the region found — the pooled maxima p [8,128], the weights [128,128], the bias rows [1,128].
  One grid point whose blocks are the whole arrays; the matrix products contract the second axis of both operands
  into a zero accumulator, which over the extended reals is the plain sum.
-/
import proofs.«172904_j87479893885507_1_alg».proof.Proof.Gate
import proofs.«172904_j87479893885507_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GateValue

open Idealize.ShloMosaic Idealize.ShloMosaic.TcCoe Idealize.SL.Sem Idealize.ShloMosaic.ValueIdx
open Idealize.ShloMosaic.Pipeline (Dat)
open Cert.KernelIdeal Cert.KernelIdeal.Gen

/-! ## The matrix product at an entry -/

theorem lhs_axis0 (i : S8x128.Idx) (q : Cert.KernelIdeal.dot_S8x128_S128x128_S8x128_1_1_0_0_n_n.contr.Idx) :
    (Cert.KernelIdeal.dot_S8x128_S128x128_S8x128_1_1_0_0_n_n.lhsIdx i q 0).val = (i 0).val := by
  unfold DotDims.lhsIdx
  rw [dif_neg (show ¬(0 : Fin S8x128.rank) ∈ Cert.KernelIdeal.dot_S8x128_S128x128_S8x128_1_1_0_0_n_n.lhsBatch by decide), dif_pos (show (0 : Fin S8x128.rank) ∈ Cert.KernelIdeal.dot_S8x128_S128x128_S8x128_1_1_0_0_n_n.lhsNonContracting by decide)]
  rfl
theorem lhs_axis1 (i : S8x128.Idx) (q : Cert.KernelIdeal.dot_S8x128_S128x128_S8x128_1_1_0_0_n_n.contr.Idx) :
    (Cert.KernelIdeal.dot_S8x128_S128x128_S8x128_1_1_0_0_n_n.lhsIdx i q 1).val = (q ⟨0, by decide⟩).val :=
  Cert.KernelIdeal.dot_S8x128_S128x128_S8x128_1_1_0_0_n_n.lhsIdx_val_of_single rfl i q
theorem rhs_axis0 (i : S8x128.Idx) (q : Cert.KernelIdeal.dot_S8x128_S128x128_S8x128_1_1_0_0_n_n.contr.Idx) :
    (Cert.KernelIdeal.dot_S8x128_S128x128_S8x128_1_1_0_0_n_n.rhsIdx i q 0).val = (i 1).val := by
  unfold DotDims.rhsIdx
  rw [dif_neg (show ¬(0 : Fin S128x128.rank) ∈ Cert.KernelIdeal.dot_S8x128_S128x128_S8x128_1_1_0_0_n_n.rhsBatch by decide), dif_pos (show (0 : Fin S128x128.rank) ∈ Cert.KernelIdeal.dot_S8x128_S128x128_S8x128_1_1_0_0_n_n.rhsNonContracting by decide)]
  rfl
theorem rhs_axis1 (i : S8x128.Idx) (q : Cert.KernelIdeal.dot_S8x128_S128x128_S8x128_1_1_0_0_n_n.contr.Idx) :
    (Cert.KernelIdeal.dot_S8x128_S128x128_S8x128_1_1_0_0_n_n.rhsIdx i q 1).val = (q ⟨0, by decide⟩).val :=
  Cert.KernelIdeal.dot_S8x128_S128x128_S8x128_1_1_0_0_n_n.rhsIdx_val_of_single rfl i q

/-- The product contracting the second axis of both operands, into the zero accumulator: entry (p, q) is the sum
    over k of x(p, k) · y(q, k). -/
theorem matmul_entry (x : FVec Ideal S8x128 .f32) (y : FVec Ideal S128x128 .f32) (p : Fin 8) (q : Fin 128) :
    matmul Cert.KernelIdeal.dot_S8x128_S128x128_S8x128_1_1_0_0_n_n none x y (constant (F := Ideal) S8x128 .f32 0x00000000#32) (ix2 p q)
      = ∑ k : Fin 128, x (ix2 p k) * y (ix2 q k) := by
  refine (Ideal.matmul_constant_zero_apply Cert.KernelIdeal.dot_S8x128_S128x128_S8x128_1_1_0_0_n_n none x y (ix2 p q)).trans ?_
  rw [← Equiv.sum_comp (ValueIdx.contrEquiv1 Cert.KernelIdeal.dot_S8x128_S128x128_S8x128_1_1_0_0_n_n 128 rfl rfl).symm]
  refine Finset.sum_congr rfl fun k _ => ?_
  have hk := ValueIdx.contrEquiv1_symm_val Cert.KernelIdeal.dot_S8x128_S128x128_S8x128_1_1_0_0_n_n 128 rfl rfl k
  have el : Cert.KernelIdeal.dot_S8x128_S128x128_S8x128_1_1_0_0_n_n.lhsIdx (ix2 p q) ((ValueIdx.contrEquiv1 Cert.KernelIdeal.dot_S8x128_S128x128_S8x128_1_1_0_0_n_n 128 rfl rfl).symm k) = ix2 p k := funext fun a => Fin.ext (by
    match a with
    | ⟨0, _⟩ => exact lhs_axis0 _ _
    | ⟨1, _⟩ => exact (lhs_axis1 _ _).trans hk)
  have er : Cert.KernelIdeal.dot_S8x128_S128x128_S8x128_1_1_0_0_n_n.rhsIdx (ix2 p q) ((ValueIdx.contrEquiv1 Cert.KernelIdeal.dot_S8x128_S128x128_S8x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## The body's arithmetic at an entry -/

/-- One linear layer over rows: the product into the zero accumulator plus the bias row broadcast over the rows,
    at (r, c), is the sum over k of x(r, k) · w(c, k), plus bias(0, c). -/
theorem linear_entry (x : FVec Ideal S8x128 .f32) (w : FVec Ideal S128x128 .f32) (bias : FVec Ideal S1x128 .f32) (r : Fin 8) (c : Fin 128) :
    addf (matmul Cert.KernelIdeal.dot_S8x128_S128x128_S8x128_1_1_0_0_n_n none x w (constant (F := Ideal) S8x128 .f32 0x00000000#32))
        (broadcastTo S8x128 bias broadcasts_S1x128_S8x128) (ix2 r c)
      = (∑ k : Fin 128, x (ix2 r k) * w (ix2 c k)) + bias (ix2 0 c) := by
  show matmul Cert.KernelIdeal.dot_S8x128_S128x128_S8x128_1_1_0_0_n_n none x w (constant (F := Ideal) S8x128 .f32 0x00000000#32) (ix2 r c)
      + broadcastTo S8x128 bias broadcasts_S1x128_S8x128 (ix2 r c) = _
  rw [matmul_entry, broadcastTo_1b_ab_apply bias broadcasts_S1x128_S8x128 r c]

/-- The hidden layer at (r, c): the first linear layer, then the maximum with zero. -/
theorem hidden_entry (x : FVec Ideal S8x128 .f32) (w : FVec Ideal S128x128 .f32) (bias : FVec Ideal S1x128 .f32) (r : Fin 8) (c : Fin 128) :
    maximumf (addf (matmul Cert.KernelIdeal.dot_S8x128_S128x128_S8x128_1_1_0_0_n_n none x w (constant (F := Ideal) S8x128 .f32 0x00000000#32))
        (broadcastTo S8x128 bias broadcasts_S1x128_S8x128)) (broadcast S8x128 (FloatOps.ofBits (F := Ideal) .f32 0x00000000#32)) (ix2 r c)
      = max ((∑ k : Fin 128, x (ix2 r k) * w (ix2 c k)) + bias (ix2 0 c)) 0 := by
  show max (addf (matmul Cert.KernelIdeal.dot_S8x128_S128x128_S8x128_1_1_0_0_n_n none x w (constant (F := Ideal) S8x128 .f32 0x00000000#32))
        (broadcastTo S8x128 bias broadcasts_S1x128_S8x128) (ix2 r c)) (Ideal.ofBits .f32 0x00000000#32) = _
  rw [linear_entry, Ideal.ofBits_zero_f32]

/-- The payload at (b, o): two linear layers contracting the second axis of each weight matrix, relu between,
    each bias row added to every row, the logistic function last. -/
theorem pay_entry (p : Vec Ideal S8x128 .f32) (w1 : Vec Ideal S128x128 .f32) (b1 : Vec Ideal S1x128 .f32)
    (w2 : Vec Ideal S128x128 .f32) (b2 : Vec Ideal S1x128 .f32) (b : Fin 8) (o : Fin 128) :
    k1_pay1 (F := Ideal) p w1 b1 w2 b2 (ix2 b o)
      = Ideal.logistic ((∑ k : Fin 128, max ((∑ j : Fin 128, p (ix2 b j) * w1 (ix2 k j)) + b1 (ix2 0 k)) 0 * w2 (ix2 o k))
          + b2 (ix2 0 o)) := by
  unfold k1_pay1
  simp only [shapeCast_self]
  refine (congrArg Ideal.logistic (linear_entry _ w2 b2 b o)).trans ?_
  refine congrArg (fun s => Ideal.logistic (s + b2 (ix2 0 o))) (Finset.sum_congr rfl fun k _ => ?_)
  exact congrArg (· * w2 (ix2 o k)) (hidden_entry p w1 b1 b k)

variable (V : (c : Dev nD) → (b : Ref sig .tc) → Buf (Elt Ideal) ((c : Thread nD τ).loc b))

/-- The five arrays the region reads, as it finds them, each at its literal type. -/
abbrev pArr (c : Dev nD) : S8x128.Idx → EReal := V c main_v1
abbrev w1Arr (c : Dev nD) : S128x128.Idx → EReal := V c main_arg1
abbrev b1Arr (c : Dev nD) : S1x128.Idx → EReal := V c main_v2
abbrev w2Arr (c : Dev nD) : S128x128.Idx → EReal := V c main_arg3
abbrev b2Arr (c : Dev nD) : S1x128.Idx → EReal := V c main_v3
/-- The gate array after the region, at its literal type. -/
abbrev gArr (c : Dev nD) : S8x128.Idx → EReal := (Gate.dat V c).arrAt 5 cfg1.N

/-! ## From the one block to the array -/

theorem zero_offsets : (![0, 0] : Fin 2 → Nat) = fun _ => 0 := funext fun a => by fin_cases a <;> rfl

/-- The one store takes the whole staging buffer and the five loads read whole buffers: what the body leaves is the
    payload of the five input blocks. -/
theorem out_eq (p : Vec Ideal S8x128 .f32) (w1 : Vec Ideal S128x128 .f32) (b1 : Vec Ideal S1x128 .f32)
    (w2 : Vec Ideal S128x128 .f32) (b2 : Vec Ideal S1x128 .f32) :
    Gate.out (F := Ideal) p w1 b1 w2 b2 = k1_pay1 (F := Ideal) p w1 b1 w2 b2 := by
  unfold Gate.out
  rw [View.canon_unit_zero zero_offsets]
  simp only [View.ld_unit_zero (S := S8x128) zero_offsets, View.ld_unit_zero (S := S128x128) zero_offsets,
    View.ld_unit_zero (S := S1x128) zero_offsets]

/-- At the one grid point each input window's block is its whole array: block index zero on both axes, block size
    the array's. -/
theorem blk0 (c : Dev nD) (t : Fin cfg1.N) : (Gate.iblk V c 0 t : Vec Ideal S8x128 .f32) = pArr V c := by
  obtain rfl := fin_N1 t
  unfold Gate.iblk
  have hz' : (fun a => win1_0.index t1_0 a * main_v1.ty.shape.size a) = fun _ => 0 := funext fun a => by fin_cases a <;> decide
  exact Memref.read_access_unit_zero (Elt Ideal) main_v1 hz' (fun a => by rw [congrFun hz' a]; simp) (V c main_v1)
theorem blk1 (c : Dev nD) (t : Fin cfg1.N) : (Gate.iblk V c 1 t : Vec Ideal S128x128 .f32) = w1Arr V c := by
  obtain rfl := fin_N1 t
  unfold Gate.iblk
  have hz' : (fun a => win1_1.index t1_0 a * main_arg1.ty.shape.size a) = fun _ => 0 := funext fun a => by fin_cases a <;> decide
  exact Memref.read_access_unit_zero (Elt Ideal) main_arg1 hz' (fun a => by rw [congrFun hz' a]; simp) (V c main_arg1)
theorem blk2 (c : Dev nD) (t : Fin cfg1.N) : (Gate.iblk V c 2 t : Vec Ideal S1x128 .f32) = b1Arr V c := by
  obtain rfl := fin_N1 t
  unfold Gate.iblk
  have hz' : (fun a => win1_2.index t1_0 a * main_v2.ty.shape.size a) = fun _ => 0 := funext fun a => by fin_cases a <;> decide
  exact Memref.read_access_unit_zero (Elt Ideal) main_v2 hz' (fun a => by rw [congrFun hz' a]; simp) (V c main_v2)
theorem blk3 (c : Dev nD) (t : Fin cfg1.N) : (Gate.iblk V c 3 t : Vec Ideal S128x128 .f32) = w2Arr V c := by
  obtain rfl := fin_N1 t
  unfold Gate.iblk
  have hz' : (fun a => win1_3.index t1_0 a * main_arg3.ty.shape.size a) = fun _ => 0 := funext fun a => by fin_cases a <;> decide
  exact Memref.read_access_unit_zero (Elt Ideal) main_arg3 hz' (fun a => by rw [congrFun hz' a]; simp) (V c main_arg3)
theorem blk4 (c : Dev nD) (t : Fin cfg1.N) : (Gate.iblk V c 4 t : Vec Ideal S1x128 .f32) = b2Arr V c := by
  obtain rfl := fin_N1 t
  unfold Gate.iblk
  have hz' : (fun a => win1_4.index t1_0 a * main_v3.ty.shape.size a) = fun _ => 0 := funext fun a => by fin_cases a <;> decide
  exact Memref.read_access_unit_zero (Elt Ideal) main_v3 hz' (fun a => by rw [congrFun hz' a]; simp) (V c main_v3)

/-- The whole gate array as one function of the five arrays: the payload of the arrays themselves. -/
abbrev gateOf (c : Dev nD) : S8x128.Idx → EReal :=
  k1_pay1 (F := Ideal) (pArr V c) (w1Arr V c) (b1Arr V c) (w2Arr V c) (b2Arr V c)

/-- The one write-back writes it: the output's block at the point, read through zero offsets, is the array. -/
theorem flushed_eq (c : Dev nD) (t : Fin cfg1.N) (hf : (cfg1.win 5).flush t = true) :
    (Gate.dat V c).flushed 5 t = ((cfg1.win 5).blk t).view.read (Elt Ideal) (gateOf V c) := by
  obtain rfl := fin_N1 t
  show (cfg1.win 5).cut (grid1.coords t1_0) ((Gate.dat V c).after 5 t1_0) = _
  rw [Gate.after_5, blk0, blk1, blk2, blk3, blk4, out_eq]
  have hz' : (fun a => win1_5.index t1_0 a * main_v4.ty.shape.size a) = fun _ => 0 := funext fun a => by fin_cases a <;> decide
  exact (Memref.read_access_unit_zero (Elt Ideal) main_v4 hz' (fun a => by rw [congrFun hz' a]; simp) (gateOf V c)).symm

/-- The point's block starts at offset zero and has the array's extent on both axes, so it holds every index;
    hence the array ends holding the payload of the five arrays. -/
theorem final (c : Dev nD) : (Gate.dat V c).arrAt 5 cfg1.N = gateOf V c :=
  (Gate.dat V c).arrAt_eq_of_cover 5 (gateOf V c) (flushed_eq V c) fun i =>
    ⟨t1_0, flush1_5 t1_0, by
      have hoff : ∀ a, win1_5.index t1_0 a * win1_5.size a = 0 := by decide +kernel
      have hext : ∀ a, win1_5.xsize (grid1.coords t1_0) a = S8x128.size a := by decide +kernel
      show i ∈ ((View.whole main_v4).slice (win1_5.rect t1_0)).set
      rw [View.set_slice_whole, Rect.mem_set_unit]
      intro a
      show win1_5.index t1_0 a * win1_5.size a ≤ (i a : Nat)
        ∧ (i a : Nat) < win1_5.index t1_0 a * win1_5.size a + win1_5.xsize (grid1.coords t1_0) a
      rw [hoff a, hext a, Nat.zero_add]
      exact ⟨Nat.zero_le _, (i a).isLt⟩⟩

/-- After region 1 the gate array holds, at (b, o), the two linear layers with relu between and the logistic
    function after, of the arrays as the region found them. -/
theorem final_apply (c : Dev nD) (b : Fin 8) (o : Fin 128) :
    gArr V c (ix2 b o)
      = Ideal.logistic ((∑ k : Fin 128,
            max ((∑ j : Fin 128, pArr V c (ix2 b j) * w1Arr V c (ix2 k j)) + b1Arr V c (ix2 0 k)) 0 * w2Arr V c (ix2 o k))
          + b2Arr V c (ix2 0 o)) :=
  (congrFun (final V c) (ix2 b o)).trans (pay_entry (pArr V c) (w1Arr V c) (b1Arr V c) (w2Arr V c) (b2Arr V c) b o)

end Cert.KernelIdeal.GateValue

end
-- ==== Proof.MulValue.lean ====
/-
  What region 2 leaves in the result array [8,128,4,128,128]: entry (b, c, d, h, w) is x(b, c, d, h, w) times the
  gate's entry (b, c, 0, 0, 0), of the two arrays as the region found them. The 64 output blocks tile the array;
  the block at point (b, d, h') holds rows 64·h' … 64·h'+63 of plane (b, ·, d), each entry the product of the `x`
  block's entry and the gate block's entry of the same channel.
-/
import proofs.«172904_j87479893885507_1_alg».proof.Proof.Mul
import proofs.«172904_j87479893885507_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MulValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The two arrays the region reads, as it finds them, and the result array after it, each at its literal type. -/
abbrev xArr (c : Dev nD) : S8x128x4x128x128.Idx → EReal := V c main_arg0
abbrev gArr (c : Dev nD) : S8x128x1x1x1.Idx → EReal := V c main_v5
abbrev oArr (c : Dev nD) : S8x128x4x128x128.Idx → EReal := (Mul.dat V c).arrAt 2 cfg2.N

/-! ## The body's block: the payload of the two loaded blocks, entry by entry -/

theorem hz5 : (![0, 0, 0, 0, 0] : Fin 5 → Nat) = fun _ => 0 := funext fun a => by fin_cases a <;> rfl

/-- The body's one store covers the block, so the block ends at the payload of the two loaded blocks. -/
theorem out_eq (x : Vec Ideal S1x128x1x64x128 .f32) (g : Vec Ideal S1x128x1x1x1 .f32) :
    Mul.out x g = k2_pay1 x g := by
  unfold Mul.out
  rw [View.canon_unit_zero hz5]
  simp only [View.ld_unit_zero (S := S1x128x1x64x128) hz5, View.ld_unit_zero (S := S1x128x1x1x1) hz5]

/-- The payload at an entry of the block: the `x` block's entry times the gate block's entry of the same channel. -/
theorem pay_apply (x : Vec Ideal S1x128x1x64x128 .f32) (g : Vec Ideal S1x128x1x1x1 .f32)
    (a : Fin 1) (ch : Fin 128) (e : Fin 1) (r : Fin 64) (w : Fin 128) :
    k2_pay1 x g (ix5 a ch e r w) = x (ix5 a ch e r w) * g (ix5 (0 : Fin 1) ch (0 : Fin 1) (0 : Fin 1) (0 : Fin 1)) := by
  unfold k2_pay1
  refine (mulf_apply _ _ _).trans ?_
  refine congrArg (x (ix5 a ch e r w) * ·) ?_
  rw [shapeCast_self]
  refine broadcastTo_apply g _ (ix5 a ch e r w) (ix5 (0 : Fin 1) ch (0 : Fin 1) (0 : Fin 1) (0 : Fin 1)) fun ax => ?_
  match ax with
  | ⟨0, _⟩ => rfl
  | ⟨1, _⟩ => rfl
  | ⟨2, _⟩ => rfl
  | ⟨3, _⟩ => rfl
  | ⟨4, _⟩ => rfl

/-- The same at any index of the block. -/
theorem pay_at (x : Vec Ideal S1x128x1x64x128 .f32) (g : Vec Ideal S1x128x1x1x1 .f32) (j : S1x128x1x64x128.Idx) :
    k2_pay1 x g j = x j * g (ix5 (0 : Fin 1) (j 1 : Fin 128) (0 : Fin 1) (0 : Fin 1) (0 : Fin 1)) := by
  obtain ⟨a, ch, e, r, w, rfl⟩ : ∃ (a : Fin 1) (ch : Fin 128) (e : Fin 1) (r : Fin 64) (w : Fin 128), j = ix5 a ch e r w :=
    ⟨j 0, j 1, j 2, j 3, j 4, eq_ix5 j⟩
  exact pay_apply x g a ch e r w

/-! ## The index maps, and the result as one function of the two arrays -/

/-- The three printed index maps over the 64 grid points: the `x` block and the output block sit at block index
    (t / 8, 0, (t / 2) % 4, t % 2, 0), the gate block at (t / 8, 0, 0, 0, 0). -/
theorem idx_facts : ∀ t : Fin cfg2.N,
    win2_0.index t (0 : Fin 5) = t.val / 8 ∧ win2_0.index t (1 : Fin 5) = 0 ∧ win2_0.index t (2 : Fin 5) = t.val / 2 % 4
    ∧ win2_0.index t (3 : Fin 5) = t.val % 2 ∧ win2_0.index t (4 : Fin 5) = 0
    ∧ win2_1.index t (0 : Fin 5) = t.val / 8 ∧ win2_1.index t (1 : Fin 5) = 0 ∧ win2_1.index t (2 : Fin 5) = 0
    ∧ win2_1.index t (3 : Fin 5) = 0 ∧ win2_1.index t (4 : Fin 5) = 0
    ∧ win2_2.index t (0 : Fin 5) = t.val / 8 ∧ win2_2.index t (1 : Fin 5) = 0 ∧ win2_2.index t (2 : Fin 5) = t.val / 2 % 4
    ∧ win2_2.index t (3 : Fin 5) = t.val % 2 ∧ win2_2.index t (4 : Fin 5) = 0 :=
  (by decide +kernel : ∀ t : Fin grid2.N, _)

/-- The result array as one function of the two arrays, index by index. -/
def G (X : S8x128x4x128x128.Idx → EReal) (Gt : S8x128x1x1x1.Idx → EReal) : S8x128x4x128x128.Idx → EReal :=
  fun i => X i * Gt (ix5 (i 0 : Fin 8) (i 1 : Fin 128) (0 : Fin 1) (0 : Fin 1) (0 : Fin 1))

/-! ## From the blocks to the array -/

/-- What point `t` writes back is block `t` of `G` of the two arrays as the region finds them: the `x` block sits where
    the output block does, and the gate block at the output block's batch, all channels. -/
theorem flushed_eq (c : Dev nD) (t : Fin cfg2.N) :
    (Mul.dat V c).flushed 2 t = ((cfg2.win 2).blk t).view.read (Elt Ideal) (G (xArr V c) (gArr V c)) := by
  show (cfg2.win 2).cut (grid2.coords t) ((Mul.dat V c).after 2 t) = _
  rw [Mul.after_2, out_eq]
  funext j
  refine (pay_at _ _ _).trans ?_
  obtain ⟨a0, a1, a2, a3, a4, g0, g1, g2, g3, g4, o0, o1, o2, o3, o4⟩ := idx_facts t
  show xArr V c (((cfg2.win 0).blk t).view.emb j)
        * gArr V c (((cfg2.win 1).blk t).view.emb (ix5 (0 : Fin 1) (j 1 : Fin 128) (0 : Fin 1) (0 : Fin 1) (0 : Fin 1)))
      = xArr V c (((cfg2.win 2).blk t).view.emb j)
        * gArr V c (ix5 ((((cfg2.win 2).blk t).view.emb j) 0 : Fin 8) ((((cfg2.win 2).blk t).view.emb j) 1 : Fin 128) (0 : Fin 1) (0 : Fin 1) (0 : Fin 1))
  have hj0 : (j 0).val < 1 := (j 0).isLt
  have h0 : ((cfg2.win 0).blk t).view.emb j = ((cfg2.win 2).blk t).view.emb j := by
    funext a; apply Fin.ext
    match a with
    | ⟨0, _⟩ => show win2_0.index t (0 : Fin 5) * 1 + 1 * (j 0).val = win2_2.index t (0 : Fin 5) * 1 + 1 * (j 0).val; omega
    | ⟨1, _⟩ => show win2_0.index t (1 : Fin 5) * 128 + 1 * (j 1).val = win2_2.index t (1 : Fin 5) * 128 + 1 * (j 1).val; omega
    | ⟨2, _⟩ => show win2_0.index t (2 : Fin 5) * 1 + 1 * (j 2).val = win2_2.index t (2 : Fin 5) * 1 + 1 * (j 2).val; omega
    | ⟨3, _⟩ => show win2_0.index t (3 : Fin 5) * 64 + 1 * (j 3).val = win2_2.index t (3 : Fin 5) * 64 + 1 * (j 3).val; omega
    | ⟨4, _⟩ => show win2_0.index t (4 : Fin 5) * 128 + 1 * (j 4).val = win2_2.index t (4 : Fin 5) * 128 + 1 * (j 4).val; omega
  have h1 : ((cfg2.win 1).blk t).view.emb (ix5 (0 : Fin 1) (j 1 : Fin 128) (0 : Fin 1) (0 : Fin 1) (0 : Fin 1))
      = ix5 ((((cfg2.win 2).blk t).view.emb j) 0 : Fin 8) ((((cfg2.win 2).blk t).view.emb j) 1 : Fin 128) (0 : Fin 1) (0 : Fin 1) (0 : Fin 1) := by
    funext a; apply Fin.ext
    match a with
    | ⟨0, _⟩ => show win2_1.index t (0 : Fin 5) * 1 + 1 * 0 = win2_2.index t (0 : Fin 5) * 1 + 1 * (j 0).val; omega
    | ⟨1, _⟩ => show win2_1.index t (1 : Fin 5) * 128 + 1 * (j 1).val = win2_2.index t (1 : Fin 5) * 128 + 1 * (j 1).val; omega
    | ⟨2, _⟩ => show win2_1.index t (2 : Fin 5) * 1 + 1 * 0 = 0; omega
    | ⟨3, _⟩ => show win2_1.index t (3 : Fin 5) * 1 + 1 * 0 = 0; omega
    | ⟨4, _⟩ => show win2_1.index t (4 : Fin 5) * 1 + 1 * 0 = 0; omega
  rw [h0, h1]
  rfl

/-- An index of the array is in point `t`'s output block iff each coordinate is in the block's range on its axis. -/
theorem mem_blk (t : Fin cfg2.N) (i : S8x128x4x128x128.Idx) :
    i ∈ ((cfg2.win 2).blk t).view.set ↔ ∀ a : Fin 5, win2_2.index t a * S1x128x1x64x128.size a ≤ (i a).val
      ∧ (i a).val < win2_2.index t a * S1x128x1x64x128.size a + S1x128x1x64x128.size a := by
  show i ∈ ((View.whole main_v6).slice (win2_2.rect t)).set ↔ _
  rw [View.set_slice_whole, Rect.mem_set_unit]
  exact Iff.rfl

/-- The 64 output blocks tile the array: entry (b, ·, d, h, ·) is in the block of point 8·b + 2·d + h / 64. -/
theorem cover (i : S8x128x4x128x128.Idx) :
    ∃ t : Fin cfg2.N, (cfg2.win 2).flush t = true ∧ i ∈ ((cfg2.win 2).blk t).view.set := by
  have h0 : (i 0).val < 8 := (i 0).isLt
  have h1 : (i 1).val < 128 := (i 1).isLt
  have h2 : (i 2).val < 4 := (i 2).isLt
  have h3 : (i 3).val < 128 := (i 3).isLt
  have h4 : (i 4).val < 128 := (i 4).isLt
  have hN : cfg2.N = 64 := N_2
  obtain ⟨t, ht⟩ : ∃ t : Fin cfg2.N, t.val = 8 * (i 0).val + 2 * (i 2).val + (i 3).val / 64 :=
    ⟨⟨8 * (i 0).val + 2 * (i 2).val + (i 3).val / 64, by rw [hN]; omega⟩, rfl⟩
  obtain ⟨-, -, -, -, -, -, -, -, -, -, o0, o1, o2, o3, o4⟩ := idx_facts t
  refine ⟨t, flush2_2 t, ?_⟩
  rw [mem_blk]
  intro a
  match a with
  | ⟨0, _⟩ => show win2_2.index t (0 : Fin 5) * 1 ≤ (i 0).val ∧ (i 0).val < win2_2.index t (0 : Fin 5) * 1 + 1; omega
  | ⟨1, _⟩ => show win2_2.index t (1 : Fin 5) * 128 ≤ (i 1).val ∧ (i 1).val < win2_2.index t (1 : Fin 5) * 128 + 128; omega
  | ⟨2, _⟩ => show win2_2.index t (2 : Fin 5) * 1 ≤ (i 2).val ∧ (i 2).val < win2_2.index t (2 : Fin 5) * 1 + 1; omega
  | ⟨3, _⟩ => show win2_2.index t (3 : Fin 5) * 64 ≤ (i 3).val ∧ (i 3).val < win2_2.index t (3 : Fin 5) * 64 + 64; omega
  | ⟨4, _⟩ => show win2_2.index t (4 : Fin 5) * 128 ≤ (i 4).val ∧ (i 4).val < win2_2.index t (4 : Fin 5) * 128 + 128; omega

/-- So the result array ends holding `G` of the two arrays. -/
theorem final (c : Dev nD) : (Mul.dat V c).arrAt 2 cfg2.N = G (xArr V c) (gArr V c) :=
  (Mul.dat V c).arrAt_eq_of_cover 2 (G (xArr V c) (gArr V c)) (fun t _ => flushed_eq V c t) cover

/-- After region 2 the result array holds, at (b, c, d, h, w), the product of `x` there and the gate at (b, c, 0, 0, 0). -/
theorem final_apply (c : Dev nD) (b : Fin 8) (ch : Fin 128) (d : Fin 4) (h w : Fin 128) :
    oArr V c (ix5 b ch d h w) = xArr V c (ix5 b ch d h w) * gArr V c (ix5 b ch 0 0 0) :=
  congrFun (final V c) (ix5 b ch d h w)

end Cert.KernelIdeal.MulValue

end
-- ==== Proof.Thread.lean ====
/-
  The idealized kernel's result, threaded through the run's fold. At the ideal instance the last boundary's contents
  of the result buffer are the specification of the launch memory's five argument arrays:
    the multiply region leaves x · g₅, g₅ the gate array re-laid [8,128] → [8,128,1,1,1];
    the gate region leaves the two linear layers with relu and the logistic function of the pooled array re-laid
      [8,128,1,1] → [8,128], the weights, and the biases re-laid [128] → [1,128];
    the max-pool region leaves the suprema of x;
  and no item before a region changes an argument array, so each region reads the arguments as launched.
-/
import proofs.«172904_j87479893885507_1_alg».proof.Proof.Run
import proofs.«172904_j87479893885507_1_alg».proof.Proof.PoolValue
import proofs.«172904_j87479893885507_1_alg».proof.Proof.GateValue
import proofs.«172904_j87479893885507_1_alg».proof.Proof.MulValue
import proofs.«172904_j87479893885507_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Thread

open Idealize.ShloMosaic Idealize.ShloMosaic.TcCoe Idealize.SL.Sem Idealize.ShloMosaic.ValueIdx Idealize.ShloMosaic.StableHlo
open Cert.KernelIdeal Cert.KernelIdeal.Gen Cert.KernelIdeal.Run

variable (m : (ℓ : Loc nD τ sig) → Buf (Elt Ideal) ℓ) (ρ : Dev nD → PrngReg) (c : Dev nD)

/-! ## The argument arrays as launched, at their literal types -/

abbrev x : S8x128x4x128x128.Idx → EReal := m ((c : Thread nD τ).loc main_arg0)
abbrev w1 : S128x128.Idx → EReal := m ((c : Thread nD τ).loc main_arg1)
abbrev b1 : S128.Idx → EReal := m ((c : Thread nD τ).loc main_arg2)
abbrev w2 : S128x128.Idx → EReal := m ((c : Thread nD τ).loc main_arg3)
abbrev b2 : S128.Idx → EReal := m ((c : Thread nD τ).loc main_arg4)

/-! ## What each region reads, in terms of the launch memory -/

/-- The max-pool region reads `x` as launched. -/
theorem pool_x : PoolValue.xArr (V0 m ρ) c = x m c := rfl

/-- The pooled array after the max-pool region. -/
theorem pooled_apply (b : Fin 8) (ch : Fin 128) (u v : Fin 1) :
    PoolValue.pArr (V0 m ρ) c (ix4 b ch u v) = Cert.Spec.pooled (x m c) b ch := by
  rw [PoolValue.final_apply, pool_x]

/-- The gate region reads the pooled array re-laid to [8,128]: entry (b, j) is the pooled array's (b, j, 0, 0). -/
theorem gate_p (b : Fin 8) (j : Fin 128) : GateValue.pArr (V2 m ρ) c (ix2 b j) = Cert.Spec.pooled (x m c) b j := by
  have e : GateValue.pArr (V2 m ρ) c = shapeCast S8x128 (PoolValue.pArr (V0 m ρ) c) shapeCasts_S8x128x1x1_S8x128 := by
    show StableHlo.after hostOps1 (W1 m ρ c) (Proc.devRef .tc main_v1) = _
    after_results
    rw [show W1 m ρ c (Proc.devRef .tc main_v0) = (Pool.dat (V0 m ρ) c).arrAt 1 cfg0.N from W1_arr m ρ c 1]
    rfl
  rw [e, shapeCast_apply (PoolValue.pArr (V0 m ρ) c) shapeCasts_S8x128x1x1_S8x128 (ix2 b j) (ix4 b j 0 0) (by
    rw [Shape.rowMajor_val_four, Shape.rowMajor_val_two]
    show ((b.val * 128 + j.val) * 1 + 0) * 1 + 0 = b.val * 128 + j.val
    omega)]
  exact pooled_apply m ρ c b j 0 0

/-- The gate region reads the first weight matrix as launched, -/
theorem gate_w1 : GateValue.w1Arr (V2 m ρ) c = w1 m c :=
  calc W2 m ρ c (Proc.devRef .tc main_arg1)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
/-- the second as launched, -/
theorem gate_w2 : GateValue.w2Arr (V2 m ρ) c = w2 m c :=
  calc W2 m ρ c (Proc.devRef .tc main_arg3)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
/-- and each bias re-laid to one row: entry (0, k) is the bias's entry k. -/
theorem gate_b1 (k : Fin 128) : GateValue.b1Arr (V2 m ρ) c (ix2 0 k) = b1 m c (ix1 k) := by
  have e : GateValue.b1Arr (V2 m ρ) c = shapeCast S1x128 (b1 m c) shapeCasts_S128_S1x128 := by
    show StableHlo.after hostOps1 (W1 m ρ c) (Proc.devRef .tc main_v2) = _
    after_results
    rw [show W1 m ρ c (Proc.devRef .tc main_arg2) = W0 m ρ c (Proc.devRef .tc main_arg2) from W1_of_ne m ρ c main_arg2 (by decide)]
    rfl
  rw [e]
  exact shapeCast_a_1a_apply (b1 m c) shapeCasts_S128_S1x128 0 k
theorem gate_b2 (k : Fin 128) : GateValue.b2Arr (V2 m ρ) c (ix2 0 k) = b2 m c (ix1 k) := by
  have e : GateValue.b2Arr (V2 m ρ) c = shapeCast S1x128 (b2 m c) shapeCasts_S128_S1x128 := by
    show StableHlo.after hostOps1 (W1 m ρ c) (Proc.devRef .tc main_v3) = _
    after_results
    rw [show W1 m ρ c (Proc.devRef .tc main_arg4) = W0 m ρ c (Proc.devRef .tc main_arg4) from W1_of_ne m ρ c main_arg4 (by decide)]
    rfl
  rw [e]
  exact shapeCast_a_1a_apply (b2 m c) shapeCasts_S128_S1x128 0 k

/-- The gate array after the gate region: the specification's gate. -/
theorem gate_apply (b : Fin 8) (o : Fin 128) :
    GateValue.gArr (V2 m ρ) c (ix2 b o) = Cert.Spec.gate (x m c) (w1 m c) (b1 m c) (w2 m c) (b2 m c) b o := by
  rw [GateValue.final_apply, gate_b2 m ρ c o, gate_w2 m ρ c, gate_w1 m ρ c]
  have hk : ∀ k : Fin 128,
      max ((∑ j : Fin 128, GateValue.pArr (V2 m ρ) c (ix2 b j) * w1 m c (ix2 k j)) + GateValue.b1Arr (V2 m ρ) c (ix2 0 k)) 0 * w2 m c (ix2 o k)
        = Cert.Spec.hidden (x m c) (w1 m c) (b1 m c) b k * w2 m c (ix2 o k) := fun k => by
    rw [gate_b1 m ρ c k, Finset.sum_congr rfl fun j _ => by rw [gate_p m ρ c b j]]
    rfl
  rw [Finset.sum_congr rfl fun k _ => hk k]
  rfl

/-- The multiply region reads `x` as launched, -/
theorem mul_x : MulValue.xArr (V4 m ρ) c = x m c :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((Pool.dat (V0 m ρ) c).arrAt_in 0 rfl _).trans (Pool.A_eq (V0 m ρ) c 0))
    _ = m ((c : Thread nD τ).loc main_arg0) := rfl
/-- and the gate array re-laid to [8,128,1,1,1]: entry (b, c, 0, 0, 0) is the gate array's (b, c). -/
theorem mul_g (b : Fin 8) (ch : Fin 128) :
    MulValue.gArr (V4 m ρ) c (ix5 b ch 0 0 0) = Cert.Spec.gate (x m c) (w1 m c) (b1 m c) (w2 m c) (b2 m c) b ch := by
  have e : MulValue.gArr (V4 m ρ) c = shapeCast S8x128x1x1x1 (GateValue.gArr (V2 m ρ) c) shapeCasts_S8x128_S8x128x1x1x1 := by
    show StableHlo.after hostOps2 (W3 m ρ c) (Proc.devRef .tc main_v5) = _
    after_results
    rw [show W3 m ρ c (Proc.devRef .tc main_v4) = (Gate.dat (V2 m ρ) c).arrAt 5 cfg1.N from W3_arr m ρ c 5]
    rfl
  rw [e, shapeCast_apply (GateValue.gArr (V2 m ρ) c) shapeCasts_S8x128_S8x128x1x1x1 (ix5 b ch 0 0 0) (ix2 b ch) (by
    rw [Shape.rowMajor_val_five, Shape.rowMajor_val_two]
    show b.val * 128 + ch.val = (((b.val * 128 + ch.val) * 1 + 0) * 1 + 0) * 1 + 0
    omega)]
  exact gate_apply m ρ c b ch

/-! ## The result -/

/-- The result buffer at the last boundary, at its literal type. -/
abbrev out : S8x128x4x128x128.Idx → EReal := W5 m ρ c (Proc.devRef .tc main_v6)

/-- The last boundary's contents of the result buffer are the specification of the arguments as launched. -/
theorem out_eq : out m ρ c = Cert.Spec.result (x m c) (w1 m c) (b1 m c) (w2 m c) (b2 m c) := by
  funext i
  obtain ⟨b, ch, d, h, w, rfl⟩ : ∃ (b : Fin 8) (ch : Fin 128) (d : Fin 4) (h w : Fin 128), i = ix5 b ch d h w :=
    ⟨i 0, i 1, i 2, i 3, i 4, eq_ix5 i⟩
  rw [Cert.Spec.result_apply]
  have e : out m ρ c = MulValue.oArr (V4 m ρ) c := W5_arr m ρ c 2
  rw [e, MulValue.final_apply, mul_x, mul_g]

end Cert.KernelIdeal.Thread

end
-- ==== Proof.RefValue.lean ====
/-
  The reference's result is the specification: index by index, the reference's composed term of the five argument
  arrays is `x · gate`. Every stage but the first is read at an index from its operands at an index; the first, the
  maximum over the three trailing axes from −∞, is a fold of `max` over the positions that drop to (b, c), which over
  the extended reals is their supremum.
-/
import proofs.«172904_j87479893885507_1_alg».proof.Proof.Gen.ReferenceIdeal.Run
import proofs.«172904_j87479893885507_1_alg».proof.Proof.Gen.ReferenceIdeal.Read
import proofs.«172904_j87479893885507_1_alg».proof.Proof.Spec
import Idealize.ShloMosaic.Lib.ValueIdx
import Idealize.ShloMosaic.PureOps.Ideal.Laws
import Idealize.ShloMosaic.PureOps.Reduce
import Idealize.ShloMosaic.Lib.IdealHost

set_option maxRecDepth 16384

noncomputable section

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read

/-- The word `0xFF800000` is −∞. -/
theorem ofBits_neg_inf : Ideal.ofBits .f32 0xFF800000#32 = ⊥ := by
  simp [Ideal.ofBits, Ideal.ieee]

/-- A fold of `max` from −∞ over a finite set is the supremum over the set. -/
theorem fold_maximumf_eq_sup {ι : Type} (S : Finset ι) (f : ι → EReal) :
    S.fold (FloatOps.maximumf (F := Ideal) (φ := .f32)) (⊥ : EReal) f = S.sup f := by
  induction S using Finset.cons_induction with
  | empty => simp
  | cons a S ha ih =>
    rw [Finset.fold_cons, Finset.sup_cons, ih]
    rfl

/-- A position drops to (b, c) exactly when its first two coordinates are b and c. -/
theorem drop_iff (i : S8x128x4x128x128.Idx) (b : Fin 8) (c : Fin 128) :
    reducesTo_S8x128x4x128x128_S8x128_d2_3_4.drop i = ix2 b c ↔ ((i 0 : Nat) = b ∧ (i 1 : Nat) = c) := by
  have h0 := reducesTo_S8x128x4x128x128_S8x128_d2_3_4.drop_apply_val_of_eq i 0 0
  have h1 := reducesTo_S8x128x4x128x128_S8x128_d2_3_4.drop_apply_val_of_eq i 1 1
  constructor
  · intro e
    rw [e] at h0 h1
    exact ⟨h0.symm, h1.symm⟩
  · rintro ⟨e0, e1⟩
    funext a
    apply Fin.ext
    match a with
    | ⟨0, _⟩ => exact h0.trans e0
    | ⟨1, _⟩ => exact h1.trans e1

/-- The supremum over the positions that drop to (b, c) is the supremum over (d, h, w) of the value at
    (b, c, d, h, w): each set of values bounds the other. -/
theorem sup_filter_eq (x : S8x128x4x128x128.Idx → EReal) (b : Fin 8) (c : Fin 128) :
    (Finset.univ.filter fun i => reducesTo_S8x128x4x128x128_S8x128_d2_3_4.drop i = ix2 b c).sup x
      = Finset.univ.sup fun p : Fin 4 × Fin 128 × Fin 128 => x (ix5 b c p.1 p.2.1 p.2.2) := by
  apply le_antisymm
  · refine Finset.sup_le fun i hi => ?_
    rw [Finset.mem_filter] at hi
    obtain ⟨e0, e1⟩ := (drop_iff i b c).1 hi.2
    obtain ⟨b', c', d, h, w, rfl⟩ : ∃ b' c' d h w, i = ix5 b' c' d h w := ⟨_, _, _, _, _, eq_ix5 i⟩
    obtain rfl : b' = b := Fin.ext e0
    obtain rfl : c' = c := Fin.ext e1
    exact Finset.le_sup (f := fun p : Fin 4 × Fin 128 × Fin 128 => x (ix5 b' c' p.1 p.2.1 p.2.2))
      (Finset.mem_univ (d, h, w))
  · refine Finset.sup_le fun p _ => ?_
    refine Finset.le_sup (f := x) ?_
    rw [Finset.mem_filter]
    exact ⟨Finset.mem_univ _, (drop_iff _ b c).2 ⟨rfl, rfl⟩⟩

/-- The first stage, the maximum over the three trailing axes from −∞, is the global max-pool. -/
theorem v0_apply (x : S8x128x4x128x128.Idx → EReal) (b : Fin 8) (c : Fin 128) :
    val_main_v0 (F := Ideal) x (ix2 b c) = Cert.Spec.pooled x b c := by
  unfold val_main_v0 Cert.Spec.pooled
  rw [Host.reduce_eq_fold, val_main_cst_apply, Ideal.ofBits_def, ofBits_neg_inf, fold_maximumf_eq_sup]
  exact sup_filter_eq x b c

/-! The operand indices the later stages read, at explicit coordinates. -/

theorem lidx1 (b : Fin 8) (o k : Fin 128) : lidx_main_v1 (ix2 b o) k = ix2 b k := by
  funext a; match a with | ⟨0, _⟩ => rfl | ⟨1, _⟩ => rfl

theorem ridx1 (b : Fin 8) (o k : Fin 128) : ridx_main_v1 (ix2 b o) k = ix2 o k := by
  funext a; match a with | ⟨0, _⟩ => rfl | ⟨1, _⟩ => rfl

theorem lidx6 (b : Fin 8) (o k : Fin 128) : lidx_main_v6 (ix2 b o) k = ix2 b k := by
  funext a; match a with | ⟨0, _⟩ => rfl | ⟨1, _⟩ => rfl

theorem ridx6 (b : Fin 8) (o k : Fin 128) : ridx_main_v6 (ix2 b o) k = ix2 o k := by
  funext a; match a with | ⟨0, _⟩ => rfl | ⟨1, _⟩ => rfl

theorem bidx1 (b : Fin 8) (o : Fin 128) : idx_main_v2 (idx_main_v3 (ix2 b o)) = ix1 o := by
  funext a; match a with | ⟨0, _⟩ => rfl

theorem bidx2 (b : Fin 8) (o : Fin 128) : idx_main_v7 (idx_main_v8 (ix2 b o)) = ix1 o := by
  funext a; match a with | ⟨0, _⟩ => rfl

theorem gidx (b : Fin 8) (c : Fin 128) (d : Fin 4) (h w : Fin 128) :
    idx_main_v16 (idx_main_v17 (ix5 b c d h w)) = ix2 b c := by
  funext a; match a with | ⟨0, _⟩ => rfl | ⟨1, _⟩ => rfl

/-- The first contraction: the pooled maxima of batch b against row o of the first weights. -/
theorem v1_at (x : S8x128x4x128x128.Idx → EReal) (w1 : S128x128.Idx → EReal) (b : Fin 8) (o : Fin 128) :
    val_main_v1 (F := Ideal) x w1 (ix2 b o) = ∑ k : Fin 128, Cert.Spec.pooled x b k * w1 (ix2 o k) := by
  rw [val_main_v1_apply]
  refine Finset.sum_congr rfl fun k _ => ?_
  rw [lidx1, ridx1, v0_apply]

/-- With the first bias added: the first linear layer. -/
theorem v4_at (x : S8x128x4x128x128.Idx → EReal) (w1 : S128x128.Idx → EReal) (b1 : S128.Idx → EReal)
    (b : Fin 8) (o : Fin 128) :
    val_main_v4 (F := Ideal) x w1 b1 (ix2 b o) = Cert.Spec.linear (Cert.Spec.pooled x b) w1 b1 o := by
  rw [val_main_v4_apply, val_main_v3_apply, val_main_v2_apply, v1_at, bidx1, Ideal.addf_def]
  rfl

/-- Its maximum with zero: the hidden layer. -/
theorem v5_at (x : S8x128x4x128x128.Idx → EReal) (w1 : S128x128.Idx → EReal) (b1 : S128.Idx → EReal)
    (b : Fin 8) (o : Fin 128) :
    val_main_v5 (F := Ideal) x w1 b1 (ix2 b o) = Cert.Spec.hidden x w1 b1 b o := by
  rw [val_main_v5_apply, val_main_call0_v0_apply, val_main_call0_cst_apply, v4_at, Ideal.ofBits_def,
    Ideal.ofBits_zero_f32, Ideal.maximumf_def]
  rfl

/-- The second contraction: the hidden layer of batch b against row o of the second weights. -/
theorem v6_at (x : S8x128x4x128x128.Idx → EReal) (w1 : S128x128.Idx → EReal) (b1 : S128.Idx → EReal)
    (w2 : S128x128.Idx → EReal) (b : Fin 8) (o : Fin 128) :
    val_main_v6 (F := Ideal) x w1 b1 w2 (ix2 b o) = ∑ k : Fin 128, Cert.Spec.hidden x w1 b1 b k * w2 (ix2 o k) := by
  rw [val_main_v6_apply]
  refine Finset.sum_congr rfl fun k _ => ?_
  rw [lidx6, ridx6, v5_at]

/-- With the second bias added: the second linear layer. -/
theorem v9_at (x : S8x128x4x128x128.Idx → EReal) (w1 : S128x128.Idx → EReal) (b1 : S128.Idx → EReal)
    (w2 : S128x128.Idx → EReal) (b2 : S128.Idx → EReal) (b : Fin 8) (o : Fin 128) :
    val_main_v9 (F := Ideal) x w1 b1 w2 b2 (ix2 b o) = Cert.Spec.linear (Cert.Spec.hidden x w1 b1 b) w2 b2 o := by
  rw [val_main_v9_apply, val_main_v8_apply, val_main_v7_apply, v6_at, bidx2, Ideal.addf_def]
  rfl

/-- One over one plus the exponential of the negation is the logistic function: the gate. -/
theorem v15_at (x : S8x128x4x128x128.Idx → EReal) (w1 : S128x128.Idx → EReal) (b1 : S128.Idx → EReal)
    (w2 : S128x128.Idx → EReal) (b2 : S128.Idx → EReal) (b : Fin 8) (o : Fin 128) :
    val_main_v15 (F := Ideal) x w1 b1 w2 b2 (ix2 b o) = Cert.Spec.gate x w1 b1 w2 b2 b o := by
  rw [val_main_v15_apply, val_main_v14_apply, val_main_cst_1_apply, val_main_v13_apply, val_main_v12_apply,
    val_main_cst_0_apply, val_main_v11_apply, val_main_v10_apply, v9_at]
  simp only [Ideal.ofBits_def, Ideal.ofBits_one_f32, Ideal.hostDivf_def, Ideal.addf_def, Ideal.hostUnary_exp_def,
    Ideal.hostNegf_def, Ideal.negf_def]
  rfl

/-- The reference's last stage, as a function of the five argument arrays, is the specification. -/
theorem val_eq_spec (x : S8x128x4x128x128.Idx → EReal) (w1 : S128x128.Idx → EReal) (b1 : S128.Idx → EReal)
    (w2 : S128x128.Idx → EReal) (b2 : S128.Idx → EReal) :
    val_main_v18 (F := Ideal) x w1 b1 w2 b2 = Cert.Spec.result x w1 b1 w2 b2 := by
  funext i
  obtain ⟨b, c, d, h, w, rfl⟩ : ∃ b c d h w, i = ix5 b c d h w := ⟨_, _, _, _, _, eq_ix5 i⟩
  rw [Cert.Spec.result_apply, val_main_v18_apply, val_main_v17_apply, val_main_v16_apply, gidx, v15_at,
    Ideal.mulf_def]

end Cert.ReferenceIdeal.RefValue

end
-- ==== Proof.lean ====
/-
  The certificate's claim. The kernel pools each channel of `x` by its maximum over depth, height and width, passes
  the [8,128] maxima through two linear layers with relu between and the logistic function after, and scales every
  position of a channel by that channel's gate; the reference computes the same with jnp operations.

  Frames: the word-level program and its idealization run to the end, fault nowhere and leave the five argument
  arrays as launched — the run of @main's five items (three kernel regions and two stretches of host reshapes)
  over the fold of buffer contents, in which no item writes an argument. The reference's frame is its run with the
  result dropped.
  Preservation: the ideal pass rewrote nothing, so there is nothing to preserve.
  Equivalence over the extended reals: the idealized kernel's result buffer ends at the specification
  `x · logistic (relu (pooled · w1ᵀ + b1) · w2ᵀ + b2)` of its arguments (the run's fold, read region by region), and
  so does the reference's (its composed term read stage by stage); the arguments agree. The join needs no law beyond
  the lattice laws of `max` (a maximum of maxima from −∞ is the supremum, in any grouping) and reading both matrix
  products as the same sums; no input need be finite for it.
-/
import proofs.«172904_j87479893885507_1_alg».proof.Defs
import proofs.«172904_j87479893885507_1_alg».proof.Proof.Gen.Kernel
import proofs.«172904_j87479893885507_1_alg».proof.Proof.Gen.KernelIdeal
import proofs.«172904_j87479893885507_1_alg».proof.Proof.Gen.ReferenceIdeal
import proofs.«172904_j87479893885507_1_alg».proof.Proof.Gen.Pre_finite_inputs
import proofs.«172904_j87479893885507_1_alg».proof.Proof.Gen.ReferenceIdeal.Run
import proofs.«172904_j87479893885507_1_alg».proof.Proof.Gen.ReferenceIdeal.Read
import proofs.«172904_j87479893885507_1_alg».proof.Proof.Bits.Run
import proofs.«172904_j87479893885507_1_alg».proof.Proof.Run
import proofs.«172904_j87479893885507_1_alg».proof.Proof.Thread
import proofs.«172904_j87479893885507_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : @Cert.frame_Kernel Cert.Kernel.Gen.facts Cert.Pre_finite_inputs.Gen.facts :=
  fun m ρ _ => Cert.Kernel.Run.frame m ρ

/-- The idealized program runs and leaves its arguments as launched. -/
theorem frame_ki : @Cert.frame_KernelIdeal Cert.KernelIdeal.Gen.facts Cert.Pre_finite_inputs.Gen.facts :=
  fun m ρ _ => Cert.KernelIdeal.Run.frame m ρ

/-- The reference runs and leaves its arguments as launched: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the specification of those arguments
    in their result buffers, and with the arguments unchanged. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (Cert.KernelIdeal.Thread.x m c) (Cert.KernelIdeal.Thread.w1 m c) (Cert.KernelIdeal.Thread.b1 m c)
      (Cert.KernelIdeal.Thread.w2 m c) (Cert.KernelIdeal.Thread.b2 m c), ?_, ?_⟩
  · refine (θ_run Cert.KernelIdeal.defs _ _).mono (fun r h c => ⟨?_, ?_, ?_, ?_, ?_, ?_⟩) (Cert.KernelIdeal.Run.run (F := Ideal) m ρ)
    · exact (h c _ (Cert.KernelIdeal.Run.mem_uc Cert.KernelIdeal.main_v6 (by decide))).trans (Cert.KernelIdeal.Thread.out_eq m ρ c)
    · exact (h c _ (Cert.KernelIdeal.Run.mem_uc Cert.KernelIdeal.main_arg0 (by decide))).trans (Cert.KernelIdeal.Run.W5_main_arg0 m ρ c)
    · exact (h c _ (Cert.KernelIdeal.Run.mem_uc Cert.KernelIdeal.main_arg1 (by decide))).trans (Cert.KernelIdeal.Run.W5_main_arg1 m ρ c)
    · exact (h c _ (Cert.KernelIdeal.Run.mem_uc Cert.KernelIdeal.main_arg2 (by decide))).trans (Cert.KernelIdeal.Run.W5_main_arg2 m ρ c)
    · exact (h c _ (Cert.KernelIdeal.Run.mem_uc Cert.KernelIdeal.main_arg3 (by decide))).trans (Cert.KernelIdeal.Run.W5_main_arg3 m ρ c)
    · exact (h c _ (Cert.KernelIdeal.Run.mem_uc Cert.KernelIdeal.main_arg4 (by decide))).trans (Cert.KernelIdeal.Run.W5_main_arg4 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v18_eq, Cert.ReferenceIdeal.RefValue.val_eq_spec,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
